-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x32 : Shape := ⟨2, ![16384, 32]⟩
abbrev S32x4096 : Shape := ⟨2, ![32, 4096]⟩
abbrev S4096 : Shape := ⟨1, ![4096]⟩
abbrev S4096x32 : Shape := ⟨2, ![4096, 32]⟩
abbrev S32 : Shape := ⟨1, ![32]⟩
abbrev S64x4096 : Shape := ⟨2, ![64, 4096]⟩
abbrev S4096x128 : Shape := ⟨2, ![4096, 128]⟩
abbrev S128 : Shape := ⟨1, ![128]⟩
abbrev S_ : Shape := ⟨0, ![]⟩

class Facts : Prop where
  bcast_S_S16384x32 : S_.BroadcastsInDim S16384x32 (![] : Fin 0 → Fin S16384x32.rank)
  reducesTo_S16384x32_S_d0_1 : S16384x32.ReducesTo [0, 1] S_
  h_S_ : 0 < S_.numel
  bcast_S_S32x4096 : S_.BroadcastsInDim S32x4096 (![] : Fin 0 → Fin S32x4096.rank)
  reducesTo_S32x4096_S_d0_1 : S32x4096.ReducesTo [0, 1] S_
  bcast_S_S4096 : S_.BroadcastsInDim S4096 (![] : Fin 0 → Fin S4096.rank)
  reducesTo_S4096_S_d0 : S4096.ReducesTo [0] S_
  bcast_S_S4096x32 : S_.BroadcastsInDim S4096x32 (![] : Fin 0 → Fin S4096x32.rank)
  reducesTo_S4096x32_S_d0_1 : S4096x32.ReducesTo [0, 1] S_
  bcast_S_S32 : S_.BroadcastsInDim S32 (![] : Fin 0 → Fin S32.rank)
  reducesTo_S32_S_d0 : S32.ReducesTo [0] S_
  bcast_S_S64x4096 : S_.BroadcastsInDim S64x4096 (![] : Fin 0 → Fin S64x4096.rank)
  reducesTo_S64x4096_S_d0_1 : S64x4096.ReducesTo [0, 1] S_
  bcast_S_S4096x128 : S_.BroadcastsInDim S4096x128 (![] : Fin 0 → Fin S4096x128.rank)
  reducesTo_S4096x128_S_d0_1 : S4096x128.ReducesTo [0, 1] S_
  bcast_S_S128 : S_.BroadcastsInDim S128 (![] : Fin 0 → Fin S128.rank)
  reducesTo_S128_S_d0 : S128.ReducesTo [0] S_

variable [Facts]

def fn_part2 {F : FTy → Type} [FloatOps F] (main_arg7 : FVec F S4096 .f32) (main_arg8 : FVec F S4096x128 .f32) (main_arg9 : FVec F S128 .f32) (main_v33 : IVec S_ 1) : IVec S_ 1 :=
  let main_v34 : FVec F S4096 .f32 := Host.absf main_arg7
  let main_cst_12 : FVec F S_ .f32 := constant S_ .f32 0x7F800000#32
  let main_v35 : FVec F S4096 .f32 := broadcastInDim S4096 ![] bcast_S_S4096 main_cst_12
  let main_v36 : IVec S4096 1 := cmpf .olt main_v34 main_v35
  let main_c_13 : IVec S_ 1 := constantI S_ 1 1#1
  let main_v37 : IVec S_ 1 := (fun x v => Host.reduce IntOp.andi x v reducesTo_S4096_S_d0 h_S_) main_v36 main_c_13
  let main_v38 : IVec S_ 1 := andi main_v33 main_v37
  let main_v39 : FVec F S4096x128 .f32 := Host.absf main_arg8
  let main_cst_14 : FVec F S_ .f32 := constant S_ .f32 0x7F800000#32
  let main_v40 : FVec F S4096x128 .f32 := broadcastInDim S4096x128 ![] bcast_S_S4096x128 main_cst_14
  let main_v41 : IVec S4096x128 1 := cmpf .olt main_v39 main_v40
  let main_c_15 : IVec S_ 1 := constantI S_ 1 1#1
  let main_v42 : IVec S_ 1 := (fun x v => Host.reduce IntOp.andi x v reducesTo_S4096x128_S_d0_1 h_S_) main_v41 main_c_15
  let main_v43 : IVec S_ 1 := andi main_v38 main_v42
  let main_v44 : FVec F S128 .f32 := Host.absf main_arg9
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  main_v48

def fn_part1 {F : FTy → Type} [FloatOps F] (main_arg4 : FVec F S4096x32 .f32) (main_arg5 : FVec F S32 .f32) (main_arg6 : FVec F S64x4096 .f32) (main_arg7 : FVec F S4096 .f32) (main_arg8 : FVec F S4096x128 .f32) (main_arg9 : FVec F S128 .f32) (main_v13 : IVec S_ 1) (main_v16 : IVec S4096 1) : IVec S_ 1 :=
  let main_c_5 : IVec S_ 1 := constantI S_ 1 1#1
  let main_v17 : IVec S_ 1 := (fun x v => Host.reduce IntOp.andi x v reducesTo_S4096_S_d0 h_S_) main_v16 main_c_5
  let main_v18 : IVec S_ 1 := andi main_v13 main_v17
  let main_v19 : FVec F S4096x32 .f32 := Host.absf main_arg4
  let main_cst_6 : FVec F S_ .f32 := constant S_ .f32 0x7F800000#32
  let main_v20 : FVec F S4096x32 .f32 := broadcastInDim S4096x32 ![] bcast_S_S4096x32 main_cst_6
  let main_v21 : IVec S4096x32 1 := cmpf .olt main_v19 main_v20
  let main_c_7 : IVec S_ 1 := constantI S_ 1 1#1
  let main_v22 : IVec S_ 1 := (fun x v => Host.reduce IntOp.andi x v reducesTo_S4096x32_S_d0_1 h_S_) main_v21 main_c_7
  let main_v23 : IVec S_ 1 := andi main_v18 main_v22
  let main_v24 : FVec F S32 .f32 := Host.absf main_arg5
  let main_cst_8 : FVec F S_ .f32 := constant S_ .f32 0x7F800000#32
  let main_v25 : FVec F S32 .f32 := broadcastInDim S32 ![] bcast_S_S32 main_cst_8
  let main_v26 : IVec S32 1 := cmpf .olt main_v24 main_v25
  let main_c_9 : IVec S_ 1 := constantI S_ 1 1#1
  let main_v27 : IVec S_ 1 := (fun x v => Host.reduce IntOp.andi x v reducesTo_S32_S_d0 h_S_) main_v26 main_c_9
  let main_v28 : IVec S_ 1 := andi main_v23 main_v27
  let main_v29 : FVec F S64x4096 .f32 := Host.absf main_arg6
  let main_cst_10 : FVec F S_ .f32 := constant S_ .f32 0x7F800000#32
  let main_v30 : FVec F S64x4096 .f32 := broadcastInDim S64x4096 ![] bcast_S_S64x4096 main_cst_10
  let main_v31 : IVec S64x4096 1 := cmpf .olt main_v29 main_v30
  let main_c_11 : IVec S_ 1 := constantI S_ 1 1#1
  let main_v32 : IVec S_ 1 := (fun x v => Host.reduce IntOp.andi x v reducesTo_S64x4096_S_d0_1 h_S_) main_v31 main_c_11
  let main_v33 : IVec S_ 1 := andi main_v28 main_v32
  fn_part2 (F := F) main_arg7 main_arg8 main_arg9 main_v33

def fn {F : FTy → Type} [FloatOps F] (main_arg0 : FVec F S16384x32 .f32) (main_arg1 : FVec F S16384x32 .f32) (main_arg2 : FVec F S32x4096 .f32) (main_arg3 : FVec F S4096 .f32) (main_arg4 : FVec F S4096x32 .f32) (main_arg5 : FVec F S32 .f32) (main_arg6 : FVec F S64x4096 .f32) (main_arg7 : FVec F S4096 .f32) (main_arg8 : FVec F S4096x128 .f32) (main_arg9 : FVec F S128 .f32) : IVec S_ 1 :=
  let main_v0 : FVec F S16384x32 .f32 := Host.absf main_arg0
  let main_cst : FVec F S_ .f32 := constant S_ .f32 0x7F800000#32
  let main_v1 : FVec F S16384x32 .f32 := broadcastInDim S16384x32 ![] bcast_S_S16384x32 main_cst
  let main_v2 : IVec S16384x32 1 := cmpf .olt main_v0 main_v1
  let main_c : IVec S_ 1 := constantI S_ 1 1#1
  let main_v3 : IVec S_ 1 := (fun x v => Host.reduce IntOp.andi x v reducesTo_S16384x32_S_d0_1 h_S_) main_v2 main_c
  let main_v4 : FVec F S16384x32 .f32 := Host.absf main_arg1
  let main_cst_0 : FVec F S_ .f32 := constant S_ .f32 0x7F800000#32
  let main_v5 : FVec F S16384x32 .f32 := broadcastInDim S16384x32 ![] bcast_S_S16384x32 main_cst_0
  let main_v6 : IVec S16384x32 1 := cmpf .olt main_v4 main_v5
  let main_c_1 : IVec S_ 1 := constantI S_ 1 1#1
  let main_v7 : IVec S_ 1 := (fun x v => Host.reduce IntOp.andi x v reducesTo_S16384x32_S_d0_1 h_S_) main_v6 main_c_1
  let main_v8 : IVec S_ 1 := andi main_v3 main_v7
  let main_v9 : FVec F S32x4096 .f32 := Host.absf main_arg2
  let main_cst_2 : FVec F S_ .f32 := constant S_ .f32 0x7F800000#32
  let main_v10 : FVec F S32x4096 .f32 := broadcastInDim S32x4096 ![] bcast_S_S32x4096 main_cst_2
  let main_v11 : IVec S32x4096 1 := cmpf .olt main_v9 main_v10
  let main_c_3 : IVec S_ 1 := constantI S_ 1 1#1
  let main_v12 : IVec S_ 1 := (fun x v => Host.reduce IntOp.andi x v reducesTo_S32x4096_S_d0_1 h_S_) main_v11 main_c_3
  let main_v13 : IVec S_ 1 := andi main_v8 main_v12
  let main_v14 : FVec F S4096 .f32 := Host.absf main_arg3
  let main_cst_4 : FVec F S_ .f32 := constant S_ .f32 0x7F800000#32
  let main_v15 : FVec F S4096 .f32 := broadcastInDim S4096 ![] bcast_S_S4096 main_cst_4
  let main_v16 : IVec S4096 1 := cmpf .olt main_v14 main_v15
  fn_part1 (F := F) main_arg4 main_arg5 main_arg6 main_arg7 main_arg8 main_arg9 main_v13 main_v16
-- ==== Kernel.lean ====
abbrev S16384x32 : Shape := ⟨2, ![16384, 32]⟩
abbrev S32x4096 : Shape := ⟨2, ![32, 4096]⟩
abbrev S4096 : Shape := ⟨1, ![4096]⟩
abbrev S4096x32 : Shape := ⟨2, ![4096, 32]⟩
abbrev S32 : Shape := ⟨1, ![32]⟩
abbrev S64x4096 : Shape := ⟨2, ![64, 4096]⟩
abbrev S4096x128 : Shape := ⟨2, ![4096, 128]⟩
abbrev S128 : Shape := ⟨1, ![128]⟩
abbrev S1x4096 : Shape := ⟨2, ![1, 4096]⟩
abbrev S33x4096 : Shape := ⟨2, ![33, 4096]⟩
abbrev S65x4096 : Shape := ⟨2, ![65, 4096]⟩
abbrev S1x32 : Shape := ⟨2, ![1, 32]⟩
abbrev S1x128 : Shape := ⟨2, ![1, 128]⟩
abbrev S16384x128 : Shape := ⟨2, ![16384, 128]⟩
abbrev S1024x32 : Shape := ⟨2, ![1024, 32]⟩
abbrev S1024x128 : Shape := ⟨2, ![1024, 128]⟩
abbrev S512x1 : Shape := ⟨2, ![512, 1]⟩
abbrev S256x32 : Shape := ⟨2, ![256, 32]⟩
abbrev S512x32 : Shape := ⟨2, ![512, 32]⟩
abbrev S512x33 : Shape := ⟨2, ![512, 33]⟩
abbrev S512x4096 : Shape := ⟨2, ![512, 4096]⟩
abbrev S256x1 : Shape := ⟨2, ![256, 1]⟩
abbrev S256x65 : Shape := ⟨2, ![256, 65]⟩
abbrev S256x4096 : Shape := ⟨2, ![256, 4096]⟩
abbrev S256x128 : Shape := ⟨2, ![256, 128]⟩

abbrev nBuf : Space → Nat
  | .hbm => 23
  | .vmem => 12
  | .smem => 0
  | _ => 0

abbrev bufTy : (tb : Table) → Fin (tcTables nBuf tb) → BufTy
  | .hbm, ⟨0, _⟩ => ⟨S16384x32, .f32⟩
  | .hbm, ⟨1, _⟩ => ⟨S16384x32, .f32⟩
  | .hbm, ⟨2, _⟩ => ⟨S32x4096, .f32⟩
  | .hbm, ⟨3, _⟩ => ⟨S4096, .f32⟩
  | .hbm, ⟨4, _⟩ => ⟨S4096x32, .f32⟩
  | .hbm, ⟨5, _⟩ => ⟨S32, .f32⟩
  | .hbm, ⟨6, _⟩ => ⟨S64x4096, .f32⟩
  | .hbm, ⟨7, _⟩ => ⟨S4096, .f32⟩
  | .hbm, ⟨8, _⟩ => ⟨S4096x128, .f32⟩
  | .hbm, ⟨9, _⟩ => ⟨S128, .f32⟩
  | .hbm, ⟨10, _⟩ => ⟨S16384x32, .bf16⟩
  | .hbm, ⟨11, _⟩ => ⟨S16384x32, .bf16⟩
  | .hbm, ⟨12, _⟩ => ⟨S1x4096, .f32⟩
  | .hbm, ⟨13, _⟩ => ⟨S33x4096, .f32⟩
  | .hbm, ⟨14, _⟩ => ⟨S33x4096, .bf16⟩
  | .hbm, ⟨15, _⟩ => ⟨S1x4096, .f32⟩
  | .hbm, ⟨16, _⟩ => ⟨S65x4096, .f32⟩
  | .hbm, ⟨17, _⟩ => ⟨S65x4096, .bf16⟩
  | .hbm, ⟨18, _⟩ => ⟨S4096x32, .bf16⟩
  | .hbm, ⟨19, _⟩ => ⟨S4096x128, .bf16⟩
  | .hbm, ⟨20, _⟩ => ⟨S1x32, .f32⟩
  | .hbm, ⟨21, _⟩ => ⟨S1x128, .f32⟩
  | .hbm, ⟨22, _⟩ => ⟨S16384x128, .f32⟩
  | .local _ .vmem, ⟨0, _⟩ => ⟨S1024x32, .bf16⟩
  | .local _ .vmem, ⟨1, _⟩ => ⟨S1024x32, .bf16⟩
  | .local _ .vmem, ⟨2, _⟩ => ⟨S1024x32, .bf16⟩
  | .local _ .vmem, ⟨3, _⟩ => ⟨S1024x32, .bf16⟩
  | .local _ .vmem, ⟨4, _⟩ => ⟨S33x4096, .bf16⟩
  | .local _ .vmem, ⟨5, _⟩ => ⟨S4096x32, .bf16⟩
  | .local _ .vmem, ⟨6, _⟩ => ⟨S1x32, .f32⟩
  | .local _ .vmem, ⟨7, _⟩ => ⟨S65x4096, .bf16⟩
  | .local _ .vmem, ⟨8, _⟩ => ⟨S4096x128, .bf16⟩
  | .local _ .vmem, ⟨9, _⟩ => ⟨S1x128, .f32⟩
  | .local _ .vmem, ⟨10, _⟩ => ⟨S1024x128, .f32⟩
  | .local _ .vmem, ⟨11, _⟩ => ⟨S1024x128, .f32⟩
  | _, _ => ⟨S16384x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x32 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x32 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S33x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4096x32 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S65x4096 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4096x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1024x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  bitsLt_bf16_f32 : FTy.bits .bf16 < FTy.bits .f32
  bcast_S4096_S1x4096_1 : S4096.BroadcastsInDim S1x4096 (![1] : Fin 1 → Fin S1x4096.rank)
  concatenates_S32x4096_S1x4096_S33x4096_d0 : Shape.Concatenates [S32x4096, S1x4096] S33x4096 0
  concatenates_S64x4096_S1x4096_S65x4096_d0 : Shape.Concatenates [S64x4096, S1x4096] S65x4096 0
  shapeCasts_S32_S1x32 : S32.ShapeCasts S1x32
  shapeCasts_S128_S1x128 : S128.ShapeCasts S1x128
  inb_S1024x32_S256x32_0_0 : ∀ a, (![0, 0] : Fin 2 → Nat) a + S256x32.size a ≤ S1024x32.size a
  h_S256x32 : 0 < S256x32.numel
  shapeCasts_S256x32_S256x32 : S256x32.ShapeCasts S256x32
  concatenates_S256x32_S256x32_S512x32_d0 : Shape.Concatenates [S256x32, S256x32] S512x32 0
  concatenates_S512x32_S512x1_S512x33_d1 : Shape.Concatenates [S512x32, S512x1] S512x33 1
  inb_S33x4096_S33x4096_0_0 : ∀ a, (![0, 0] : Fin 2 → Nat) a + S33x4096.size a ≤ S33x4096.size a
  h_S33x4096 : 0 < S33x4096.numel
  shapeCasts_S33x4096_S33x4096 : S33x4096.ShapeCasts S33x4096
  inb_S4096x32_S4096x32_0_0 : ∀ a, (![0, 0] : Fin 2 → Nat) a + S4096x32.size a ≤ S4096x32.size a
  h_S4096x32 : 0 < S4096x32.numel
  shapeCasts_S4096x32_S4096x32 : S4096x32.ShapeCasts S4096x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S512x32 : S1x32.Broadcasts S512x32
  slices_S512x32_o0_0_S256x32 : S512x32.Slices ![0, 0] S256x32
  slices_S512x32_o256_0_S256x32 : S512x32.Slices ![256, 0] S256x32
  concatenates_S256x32_S256x32_S256x1_S256x65_d1 : Shape.Concatenates [S256x32, S256x32, S256x1] S256x65 1
  inb_S65x4096_S65x4096_0_0 : ∀ a, (![0, 0] : Fin 2 → Nat) a + S65x4096.size a ≤ S65x4096.size a
  h_S65x4096 : 0 < S65x4096.numel
  shapeCasts_S65x4096_S65x4096 : S65x4096.ShapeCasts S65x4096
  inb_S4096x128_S4096x128_0_0 : ∀ a, (![0, 0] : Fin 2 → Nat) a + S4096x128.size a ≤ S4096x128.size a
  h_S4096x128 : 0 < S4096x128.numel
  shapeCasts_S4096x128_S4096x128 : S4096x128.ShapeCasts S4096x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S256x128 : S1x128.Broadcasts S256x128
  inb_S1024x128_S256x128_0_0 : ∀ a, (![0, 0] : Fin 2 → Nat) a + S256x128.size a ≤ S1024x128.size a
  h_S256x128 : 0 < S256x128.numel
  inb_S1024x32_S256x32_256_0 : ∀ a, (![256, 0] : Fin 2 → Nat) a + S256x32.size a ≤ S1024x32.size a
  inb_S1024x128_S256x128_256_0 : ∀ a, (![256, 0] : Fin 2 → Nat) a + S256x128.size a ≤ S1024x128.size a
  inb_S1024x32_S256x32_512_0 : ∀ a, (![512, 0] : Fin 2 → Nat) a + S256x32.size a ≤ S1024x32.size a
  inb_S1024x128_S256x128_512_0 : ∀ a, (![512, 0] : Fin 2 → Nat) a + S256x128.size a ≤ S1024x128.size a
  inb_S1024x32_S256x32_768_0 : ∀ a, (![768, 0] : Fin 2 → Nat) a + S256x32.size a ≤ S1024x32.size a
  inb_S1024x128_S256x128_768_0 : ∀ a, (![768, 0] : Fin 2 → Nat) a + S256x128.size a ≤ S1024x128.size a
  dot_S512x33_S33x4096_S512x4096_1_0_0_1_n_n_wf : DotDims.WF S512x33 S33x4096 S512x4096 [1] [0] [0] [1] [] []
  dot_S512x4096_S4096x32_S512x32_1_0_0_1_n_n_wf : DotDims.WF S512x4096 S4096x32 S512x32 [1] [0] [0] [1] [] []
  dot_S256x65_S65x4096_S256x4096_1_0_0_1_n_n_wf : DotDims.WF S256x65 S65x4096 S256x4096 [1] [0] [0] [1] [] []
  dot_S256x4096_S4096x128_S256x128_1_0_0_1_n_n_wf : DotDims.WF S256x4096 S4096x128 S256x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x32.size a ≤ S16384x32.size a
  hwx0_0 : ∀ i : grid0.Coords, EltTy.bits .bf16 = 32 ∨ (Rect.block (s := S16384x32) S1024x32.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x32.size a ≤ S16384x32.size a
  hwx0_1 : ∀ i : grid0.Coords, EltTy.bits .bf16 = 32 ∨ (Rect.block (s := S16384x32) S1024x32.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S33x4096.size a ≤ S33x4096.size a
  hwx0_2 : ∀ i : grid0.Coords, EltTy.bits .bf16 = 32 ∨ (Rect.block (s := S33x4096) S33x4096.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S4096x32.size a ≤ S4096x32.size a
  hwx0_3 : ∀ i : grid0.Coords, EltTy.bits .bf16 = 32 ∨ (Rect.block (s := S4096x32) S4096x32.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x32.size a ≤ S1x32.size a
  hwx0_4 : ∀ i : grid0.Coords, EltTy.bits .f32 = 32 ∨ (Rect.block (s := S1x32) S1x32.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S65x4096.size a ≤ S65x4096.size a
  hwx0_5 : ∀ i : grid0.Coords, EltTy.bits .bf16 = 32 ∨ (Rect.block (s := S65x4096) S65x4096.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S4096x128.size a ≤ S4096x128.size a
  hwx0_6 : ∀ i : grid0.Coords, EltTy.bits .bf16 = 32 ∨ (Rect.block (s := S4096x128) S4096x128.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x128.size a ≤ S1x128.size a
  hwx0_7 : ∀ i : grid0.Coords, EltTy.bits .f32 = 32 ∨ (Rect.block (s := S1x128) S1x128.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1024x128.size a ≤ S16384x128.size a
  hwx0_8 : ∀ i : grid0.Coords, EltTy.bits .f32 = 32 ∨ (Rect.block (s := S16384x128) S1024x128.size (cc0_transform_8 i) (hinb0_8 i)).WholeWords (EltTy.packing .f32)

variable [Facts₀]

def dot_S512x33_S33x4096_S512x4096_1_0_0_1_n_n : DotDims S512x33 S33x4096 S512x4096 where
  lhsContracting := [1]
  rhsContracting := [0]
  lhsNonContracting := [0]
  rhsNonContracting := [1]
  lhsBatch := []
  rhsBatch := []
  wf := dot_S512x33_S33x4096_S512x4096_1_0_0_1_n_n_wf
def dot_S512x4096_S4096x32_S512x32_1_0_0_1_n_n : DotDims S512x4096 S4096x32 S512x32 where
  lhsContracting := [1]
  rhsContracting := [0]
  lhsNonContracting := [0]
  rhsNonContracting := [1]
  lhsBatch := []
  rhsBatch := []
  wf := dot_S512x4096_S4096x32_S512x32_1_0_0_1_n_n_wf
def dot_S256x65_S65x4096_S256x4096_1_0_0_1_n_n : DotDims S256x65 S65x4096 S256x4096 where
  lhsContracting := [1]
  rhsContracting := [0]
  lhsNonContracting := [0]
  rhsNonContracting := [1]
  lhsBatch := []
  rhsBatch := []
  wf := dot_S256x65_S65x4096_S256x4096_1_0_0_1_n_n_wf
def dot_S256x4096_S4096x128_S256x128_1_0_0_1_n_n : DotDims S256x4096 S4096x128 S256x128 where
  lhsContracting := [1]
  rhsContracting := [0]
  lhsNonContracting := [0]
  rhsNonContracting := [1]
  lhsBatch := []
  rhsBatch := []
  wf := dot_S256x4096_S4096x128_S256x128_1_0_0_1_n_n_wf

abbrev win0_0 : Pipeline.Window sig grid0 :=
  Pipeline.Window.ofSpec (Memref.whole main_v0) S1024x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1024x32.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v4) S33x4096.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v8) S4096x32.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v10) S1x32.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v7) S65x4096.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v9) S4096x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v11) S1x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v12) S1024x128.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S16384x32 : Shape := ⟨2, ![16384, 32]⟩
abbrev S32x4096 : Shape := ⟨2, ![32, 4096]⟩
abbrev S4096 : Shape := ⟨1, ![4096]⟩
abbrev S4096x32 : Shape := ⟨2, ![4096, 32]⟩
abbrev S32 : Shape := ⟨1, ![32]⟩
abbrev S64x4096 : Shape := ⟨2, ![64, 4096]⟩
abbrev S4096x128 : Shape := ⟨2, ![4096, 128]⟩
abbrev S128 : Shape := ⟨1, ![128]⟩
abbrev S16384x4096 : Shape := ⟨2, ![16384, 4096]⟩
abbrev S1x4096 : Shape := ⟨2, ![1, 4096]⟩
abbrev S_ : Shape := ⟨0, ![]⟩
abbrev S1x32 : Shape := ⟨2, ![1, 32]⟩
abbrev S16384x64 : Shape := ⟨2, ![16384, 64]⟩
abbrev S16384x128 : Shape := ⟨2, ![16384, 128]⟩
abbrev S1x128 : Shape := ⟨2, ![1, 128]⟩

abbrev nBuf : Space → Nat
  | .hbm => 50
  | .vmem => 0
  | .smem => 0
  | _ => 0

abbrev bufTy : (tb : Table) → Fin (tcTables nBuf tb) → BufTy
  | .hbm, ⟨0, _⟩ => ⟨S16384x32, .f32⟩
  | .hbm, ⟨1, _⟩ => ⟨S16384x32, .f32⟩
  | .hbm, ⟨2, _⟩ => ⟨S32x4096, .f32⟩
  | .hbm, ⟨3, _⟩ => ⟨S4096, .f32⟩
  | .hbm, ⟨4, _⟩ => ⟨S4096x32, .f32⟩
  | .hbm, ⟨5, _⟩ => ⟨S32, .f32⟩
  | .hbm, ⟨6, _⟩ => ⟨S64x4096, .f32⟩
  | .hbm, ⟨7, _⟩ => ⟨S4096, .f32⟩
  | .hbm, ⟨8, _⟩ => ⟨S4096x128, .f32⟩
  | .hbm, ⟨9, _⟩ => ⟨S128, .f32⟩
  | .hbm, ⟨10, _⟩ => ⟨S16384x4096, .f32⟩
  | .hbm, ⟨11, _⟩ => ⟨S1x4096, .f32⟩
  | .hbm, ⟨12, _⟩ => ⟨S16384x4096, .f32⟩
  | .hbm, ⟨13, _⟩ => ⟨S16384x4096, .f32⟩
  | .hbm, ⟨14, _⟩ => ⟨S_, .f32⟩
  | .hbm, ⟨15, _⟩ => ⟨S16384x4096, .f32⟩
  | .hbm, ⟨16, _⟩ => ⟨S16384x4096, .f32⟩
  | .hbm, ⟨17, _⟩ => ⟨S16384x32, .f32⟩
  | .hbm, ⟨18, _⟩ => ⟨S1x32, .f32⟩
  | .hbm, ⟨19, _⟩ => ⟨S16384x32, .f32⟩
  | .hbm, ⟨20, _⟩ => ⟨S16384x32, .f32⟩
  | .hbm, ⟨21, _⟩ => ⟨S_, .f32⟩
  | .hbm, ⟨22, _⟩ => ⟨S16384x32, .f32⟩
  | .hbm, ⟨23, _⟩ => ⟨S16384x32, .f32⟩
  | .hbm, ⟨24, _⟩ => ⟨S16384x4096, .f32⟩
  | .hbm, ⟨25, _⟩ => ⟨S1x4096, .f32⟩
  | .hbm, ⟨26, _⟩ => ⟨S16384x4096, .f32⟩
  | .hbm, ⟨27, _⟩ => ⟨S16384x4096, .f32⟩
  | .hbm, ⟨28, _⟩ => ⟨S_, .f32⟩
  | .hbm, ⟨29, _⟩ => ⟨S16384x4096, .f32⟩
  | .hbm, ⟨30, _⟩ => ⟨S16384x4096, .f32⟩
  | .hbm, ⟨31, _⟩ => ⟨S16384x32, .f32⟩
  | .hbm, ⟨32, _⟩ => ⟨S1x32, .f32⟩
  | .hbm, ⟨33, _⟩ => ⟨S16384x32, .f32⟩
  | .hbm, ⟨34, _⟩ => ⟨S16384x32, .f32⟩
  | .hbm, ⟨35, _⟩ => ⟨S_, .f32⟩
  | .hbm, ⟨36, _⟩ => ⟨S16384x32, .f32⟩
  | .hbm, ⟨37, _⟩ => ⟨S16384x32, .f32⟩
  | .hbm, ⟨38, _⟩ => ⟨S16384x64, .f32⟩
  | .hbm, ⟨39, _⟩ => ⟨S16384x4096, .f32⟩
  | .hbm, ⟨40, _⟩ => ⟨S1x4096, .f32⟩
  | .hbm, ⟨41, _⟩ => ⟨S16384x4096, .f32⟩
  | .hbm, ⟨42, _⟩ => ⟨S16384x4096, .f32⟩
  | .hbm, ⟨43, _⟩ => ⟨S_, .f32⟩
  | .hbm, ⟨44, _⟩ => ⟨S16384x4096, .f32⟩
  | .hbm, ⟨45, _⟩ => ⟨S16384x4096, .f32⟩
  | .hbm, ⟨46, _⟩ => ⟨S16384x128, .f32⟩
  | .hbm, ⟨47, _⟩ => ⟨S1x128, .f32⟩
  | .hbm, ⟨48, _⟩ => ⟨S16384x128, .f32⟩
  | .hbm, ⟨49, _⟩ => ⟨S16384x128, .f32⟩
  | _, _ => ⟨S16384x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_call0_cst : Ref sig .tc := ⟨.hbm, 14, rfl⟩
abbrev main_call0_v0 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_call1_cst : Ref sig .tc := ⟨.hbm, 21, rfl⟩
abbrev main_call1_v0 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_call2_cst : Ref sig .tc := ⟨.hbm, 28, rfl⟩
abbrev main_call2_v0 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_call3_cst : Ref sig .tc := ⟨.hbm, 35, rfl⟩
abbrev main_call3_v0 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_call4_cst : Ref sig .tc := ⟨.hbm, 43, rfl⟩
abbrev main_call4_v0 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩

abbrev nD : Nat := 1
abbrev τ : Topo := Topo.v7x

variable {F : FTy → Type} [FloatOps F]

class Facts₀ : Prop where
  bcast_S4096_S1x4096_1 : S4096.BroadcastsInDim S1x4096 (![1] : Fin 1 → Fin S1x4096.rank)
  bcast_S1x4096_S16384x4096_0_1 : S1x4096.BroadcastsInDim S16384x4096 (![0, 1] : Fin 2 → Fin S16384x4096.rank)
  bcast_S_S16384x4096 : S_.BroadcastsInDim S16384x4096 (![] : Fin 0 → Fin S16384x4096.rank)
  bcast_S32_S1x32_1 : S32.BroadcastsInDim S1x32 (![1] : Fin 1 → Fin S1x32.rank)
  bcast_S1x32_S16384x32_0_1 : S1x32.BroadcastsInDim S16384x32 (![0, 1] : Fin 2 → Fin S16384x32.rank)
  bcast_S_S16384x32 : S_.BroadcastsInDim S16384x32 (![] : Fin 0 → Fin S16384x32.rank)
  concatenates_S16384x32_S16384x32_S16384x64_d1 : Shape.Concatenates [S16384x32, S16384x32] S16384x64 1
  bcast_S128_S1x128_1 : S128.BroadcastsInDim S1x128 (![1] : Fin 1 → Fin S1x128.rank)
  bcast_S1x128_S16384x128_0_1 : S1x128.BroadcastsInDim S16384x128 (![0, 1] : Fin 2 → Fin S16384x128.rank)
  dot_S16384x32_S32x4096_S16384x4096_1_0_0_1_n_n_wf : DotDims.WF S16384x32 S32x4096 S16384x4096 [1] [0] [0] [1] [] []
  dot_S16384x4096_S4096x32_S16384x32_1_0_0_1_n_n_wf : DotDims.WF S16384x4096 S4096x32 S16384x32 [1] [0] [0] [1] [] []
  dot_S16384x64_S64x4096_S16384x4096_1_0_0_1_n_n_wf : DotDims.WF S16384x64 S64x4096 S16384x4096 [1] [0] [0] [1] [] []
  dot_S16384x4096_S4096x128_S16384x128_1_0_0_1_n_n_wf : DotDims.WF S16384x4096 S4096x128 S16384x128 [1] [0] [0] [1] [] []

variable [Facts₀]

def dot_S16384x32_S32x4096_S16384x4096_1_0_0_1_n_n : DotDims S16384x32 S32x4096 S16384x4096 where
  lhsContracting := [1]
  rhsContracting := [0]
  lhsNonContracting := [0]
  rhsNonContracting := [1]
  lhsBatch := []
  rhsBatch := []
  wf := dot_S16384x32_S32x4096_S16384x4096_1_0_0_1_n_n_wf
def dot_S16384x4096_S4096x32_S16384x32_1_0_0_1_n_n : DotDims S16384x4096 S4096x32 S16384x32 where
  lhsContracting := [1]
  rhsContracting := [0]
  lhsNonContracting := [0]
  rhsNonContracting := [1]
  lhsBatch := []
  rhsBatch := []
  wf := dot_S16384x4096_S4096x32_S16384x32_1_0_0_1_n_n_wf
def dot_S16384x64_S64x4096_S16384x4096_1_0_0_1_n_n : DotDims S16384x64 S64x4096 S16384x4096 where
  lhsContracting := [1]
  rhsContracting := [0]
  lhsNonContracting := [0]
  rhsNonContracting := [1]
  lhsBatch := []
  rhsBatch := []
  wf := dot_S16384x64_S64x4096_S16384x4096_1_0_0_1_n_n_wf
def dot_S16384x4096_S4096x128_S16384x128_1_0_0_1_n_n : DotDims S16384x4096 S4096x128 S16384x128 where
  lhsContracting := [1]
  rhsContracting := [0]
  lhsNonContracting := [0]
  rhsNonContracting := [1]
  lhsBatch := []
  rhsBatch := []
  wf := dot_S16384x4096_S4096x128_S16384x128_1_0_0_1_n_n_wf

class Facts : Prop extends Facts₀ where

variable [Facts]
-- ==== Proof.RowNet.lean ====
/-
  The two networks, one batch row at a time, over the extended reals.

  A dense layer sends a row x to  j ↦ (∑ k, x k * W k j) + b j ; the rectifier is  v ↦ max v 0 . The shared net is
  rectifier ∘ layer(W2, b2) ∘ rectifier ∘ layer(W1, b1), applied to the state row and to the next-state row; the
  action head is layer(W4, b4) ∘ rectifier ∘ layer(W3, b3) on the two 32-wide outputs laid side by side.

  One law joins the two programs: a layer's bias can be carried by the product itself. Append a one to the row and
  the bias to the weights as one more contraction position: the longer sum is the shorter sum plus 1 * b, and
  1 * b = b for every extended real b, the infinities included. Only the last term is split off a finite sum, so no
  distributivity is used and no finiteness is needed.
-/
import Idealize.ShloMosaic.PureOps.Ideal.Laws
import Idealize.ShloMosaic.Lib.ValueIdx

noncomputable section

namespace Cert.RowNet

/-- A dense layer on one row. -/
def lin {K N : Nat} (W : Fin K → Fin N → EReal) (b : Fin N → EReal) (x : Fin K → EReal) : Fin N → EReal :=
  fun j => (∑ k, x k * W k j) + b j

/-- The rectifier on one row. -/
def relu {N : Nat} (v : Fin N → EReal) : Fin N → EReal := fun j => max (v j) 0

/-- Two rows laid side by side. -/
def join {A B : Nat} (u : Fin A → EReal) (v : Fin B → EReal) : Fin (A + B) → EReal :=
  fun k => if h : k.val < A then u ⟨k.val, h⟩ else v ⟨k.val - A, by have := k.isLt; omega⟩

theorem join_left {A B : Nat} (u : Fin A → EReal) (v : Fin B → EReal) (k : Fin (A + B)) (h : k.val < A) :
    join u v k = u ⟨k.val, h⟩ := dif_pos h

theorem join_right {A B : Nat} (u : Fin A → EReal) (v : Fin B → EReal) (k : Fin (A + B)) (h : ¬ k.val < A) :
    join u v k = v ⟨k.val - A, by have := k.isLt; omega⟩ := dif_neg h

section Net

variable (W1 : Fin 32 → Fin 4096 → EReal) (b1 : Fin 4096 → EReal) (W2 : Fin 4096 → Fin 32 → EReal) (b2 : Fin 32 → EReal)
variable (W3 : Fin 64 → Fin 4096 → EReal) (b3 : Fin 4096 → EReal) (W4 : Fin 4096 → Fin 128 → EReal) (b4 : Fin 128 → EReal)

/-- The shared net on one 32-wide row. -/
def net (x : Fin 32 → EReal) : Fin 32 → EReal := relu (lin W2 b2 (relu (lin W1 b1 x)))

/-- The action head on the state row and the next-state row of one batch element. -/
def head (s n : Fin 32 → EReal) : Fin 128 → EReal :=
  lin W4 b4 (relu (lin W3 b3 (join (net W1 b1 W2 b2 s) (net W1 b1 W2 b2 n))))

end Net

/-- The bias carried by the product: a row with a one appended, against weights with the bias appended as one more
    contraction position, sums to the layer's value. -/
theorem sum_bias_carried {K : Nat} (X Wf : Fin (K + 1) → EReal) (x w : Fin K → EReal) (b : EReal)
    (hX : ∀ k : Fin K, X ⟨k.val, Nat.lt_succ_of_lt k.isLt⟩ = x k) (hX1 : X ⟨K, Nat.lt_succ_self K⟩ = 1)
    (hW : ∀ k : Fin K, Wf ⟨k.val, Nat.lt_succ_of_lt k.isLt⟩ = w k) (hWb : Wf ⟨K, Nat.lt_succ_self K⟩ = b) :
    ∑ k, X k * Wf k = (∑ k, x k * w k) + b := by
  rw [Fin.sum_univ_castSucc]
  have e1 : ∀ k : Fin K, X k.castSucc * Wf k.castSucc = x k * w k := fun k => by
    rw [show k.castSucc = (⟨k.val, Nat.lt_succ_of_lt k.isLt⟩ : Fin (K + 1)) from rfl, hX, hW]
  have e2 : X (Fin.last K) * Wf (Fin.last K) = b := by
    rw [show Fin.last K = (⟨K, Nat.lt_succ_self K⟩ : Fin (K + 1)) from rfl, hX1, hWb, one_mul]
  rw [Finset.sum_congr rfl (fun k _ => e1 k), e2]

/-! ## Arrays as rows and matrices, and the whole result -/

open Idealize.ShloMosaic Idealize.ShloMosaic.ValueIdx

/-- Row i of a rank-two array. -/
def row {A B : Nat} (x : (⟨2, ![A, B]⟩ : Shape).Idx → EReal) (i : Fin A) : Fin B → EReal := fun k => x (ix2 i k)

/-- A rank-two array as a matrix. -/
def mat {A B : Nat} (w : (⟨2, ![A, B]⟩ : Shape).Idx → EReal) : Fin A → Fin B → EReal := fun k j => w (ix2 k j)

/-- A rank-one array as a row. -/
def vec {A : Nat} (b : (⟨1, ![A]⟩ : Shape).Idx → EReal) : Fin A → EReal := fun j => b (ix1 j)

/-- The result array of both programs as one function of the ten argument arrays: entry (i, q) is the action head
    of batch element i's state row and next-state row, at output q. -/
def result (st nx : (⟨2, ![16384, 32]⟩ : Shape).Idx → EReal) (w1 : (⟨2, ![32, 4096]⟩ : Shape).Idx → EReal)
    (c1 : (⟨1, ![4096]⟩ : Shape).Idx → EReal) (w2 : (⟨2, ![4096, 32]⟩ : Shape).Idx → EReal)
    (c2 : (⟨1, ![32]⟩ : Shape).Idx → EReal) (w3 : (⟨2, ![64, 4096]⟩ : Shape).Idx → EReal)
    (c3 : (⟨1, ![4096]⟩ : Shape).Idx → EReal) (w4 : (⟨2, ![4096, 128]⟩ : Shape).Idx → EReal)
    (c4 : (⟨1, ![128]⟩ : Shape).Idx → EReal) : (⟨2, ![16384, 128]⟩ : Shape).Idx → EReal :=
  fun y => head (mat w1) (vec c1) (mat w2) (vec c2) (mat w3) (vec c3) (mat w4) (vec c4) (row st (y 0)) (row nx (y 0)) (y 1)

end Cert.RowNet

end
-- ==== Proof.LibPlainDot.lean ====
/-
  A matrix product with one contracted axis, read at an entry.

  For a rank-two by rank-two product whose dimension numbers are the plain ones — the left operand's columns
  contracted with the right operand's rows, no batch axis — the operand indices at result entry (r, c) and
  contraction position k are (r, k) and (k, c). So, over the extended reals, a product accumulated into the zero
  array, and a host dot_general, are both the finite sum  ∑ k, lhs (r, k) * rhs (k, c)  over k below the contracted
  extent. Everything is stated for ANY dimension record of that form, whatever its extents.
-/
import Idealize.ShloMosaic.Lib.ValueIdx
import Idealize.ShloMosaic.PureOps.Ideal.Laws

noncomputable section

namespace Idealize.ShloMosaic.PlainDot

open Idealize.ShloMosaic Idealize.ShloMosaic.ValueIdx

variable {M K N : Nat}

/-- The dimension numbers of an M×K by K×N product: columns against rows, nothing batched. -/
structure IsPlain (d : DotDims (⟨2, ![M, K]⟩ : Shape) (⟨2, ![K, N]⟩ : Shape) (⟨2, ![M, N]⟩ : Shape)) : Prop where
  lc : d.lhsContracting = [1]
  rc : d.rhsContracting = [0]
  ln : d.lhsNonContracting = [0]
  rn : d.rhsNonContracting = [1]
  lb : d.lhsBatch = []
  rb : d.rhsBatch = []

variable {d : DotDims (⟨2, ![M, K]⟩ : Shape) (⟨2, ![K, N]⟩ : Shape) (⟨2, ![M, N]⟩ : Shape)}

theorem IsPlain.rank_contr (h : IsPlain d) : d.contr.rank = 1 := by
  rw [d.rank_contr, h.lc]; rfl

theorem IsPlain.size_contr (h : IsPlain d) : d.contr.size ⟨0, by rw [h.rank_contr]; exact Nat.one_pos⟩ = K := by
  have e := d.size_contr 0 (by rw [h.lc]; exact Nat.one_pos)
  rw [e]
  simp only [h.lc, List.getElem_cons_zero]
  rfl

/-- The left operand's row is the result's row. -/
theorem IsPlain.lhs_row (h : IsPlain d) (j : (⟨2, ![M, N]⟩ : Shape).Idx) (k : d.contr.Idx) :
    (d.lhsIdx j k 0).val = (j 0).val := by
  have hb : (0 : Fin (⟨2, ![M, K]⟩ : Shape).rank) ∉ d.lhsBatch := by rw [h.lb]; exact List.not_mem_nil
  have hn : (0 : Fin (⟨2, ![M, K]⟩ : Shape).rank) ∈ d.lhsNonContracting := by rw [h.ln]; exact List.mem_singleton.mpr rfl
  unfold DotDims.lhsIdx
  rw [dif_neg hb, dif_pos hn]
  simp only [Fin.val_cast]
  have key : ∀ (p q : Nat) (hp : p < (⟨2, ![M, N]⟩ : Shape).rank) (hq : q < (⟨2, ![M, N]⟩ : Shape).rank), p = q →
      (j ⟨p, hp⟩).val = (j ⟨q, hq⟩).val := fun p q hp hq e => by subst e; rfl
  exact key _ _ _ _ (by simp [h.lb, h.ln])

/-- The left operand's column is the contraction position. -/
theorem IsPlain.lhs_col (h : IsPlain d) (j : (⟨2, ![M, N]⟩ : Shape).Idx) (k : d.contr.Idx) :
    (d.lhsIdx j k 1).val = (k ⟨0, by rw [h.rank_contr]; exact Nat.one_pos⟩).val :=
  d.lhsIdx_val_of_single h.lc j k

/-- The right operand's row is the contraction position. -/
theorem IsPlain.rhs_row (h : IsPlain d) (j : (⟨2, ![M, N]⟩ : Shape).Idx) (k : d.contr.Idx) :
    (d.rhsIdx j k 0).val = (k ⟨0, by rw [h.rank_contr]; exact Nat.one_pos⟩).val :=
  d.rhsIdx_val_of_single h.rc j k

/-- The right operand's column is the result's column. -/
theorem IsPlain.rhs_col (h : IsPlain d) (j : (⟨2, ![M, N]⟩ : Shape).Idx) (k : d.contr.Idx) :
    (d.rhsIdx j k 1).val = (j 1).val := by
  have hb : (1 : Fin (⟨2, ![K, N]⟩ : Shape).rank) ∉ d.rhsBatch := by rw [h.rb]; exact List.not_mem_nil
  have hn : (1 : Fin (⟨2, ![K, N]⟩ : Shape).rank) ∈ d.rhsNonContracting := by rw [h.rn]; exact List.mem_singleton.mpr rfl
  unfold DotDims.rhsIdx
  rw [dif_neg hb, dif_pos hn]
  simp only [Fin.val_cast]
  have key : ∀ (p q : Nat) (hp : p < (⟨2, ![M, N]⟩ : Shape).rank) (hq : q < (⟨2, ![M, N]⟩ : Shape).rank), p = q →
      (j ⟨p, hp⟩).val = (j ⟨q, hq⟩).val := fun p q hp hq e => by subst e; rfl
  exact key _ _ _ _ (by simp [h.lb, h.ln, h.rn])

/-- The sum over the contraction shape's positions, re-indexed by the one coordinate: the entry (r, c) of the
    product is the sum over k of the left operand's (r, k) times the right operand's (k, c). -/
theorem IsPlain.sum_contr (h : IsPlain d) {α : Type} [AddCommMonoid α] [Mul α]
    (lhs : (⟨2, ![M, K]⟩ : Shape).Idx → α) (rhs : (⟨2, ![K, N]⟩ : Shape).Idx → α) (r : Fin M) (c : Fin N) :
    ∑ k : d.contr.Idx, lhs (d.lhsIdx (ix2 r c) k) * rhs (d.rhsIdx (ix2 r c) k)
      = ∑ k : Fin K, lhs (ix2 r k) * rhs (ix2 k c) := by
  rw [← Equiv.sum_comp (contrEquiv1 d K h.rank_contr h.size_contr).symm]
  refine Finset.sum_congr rfl fun k _ => ?_
  have hk := contrEquiv1_symm_val d K h.rank_contr h.size_contr k
  have el : d.lhsIdx (ix2 r c) ((contrEquiv1 d K h.rank_contr h.size_contr).symm k) = ix2 r k :=
    funext fun a => Fin.ext (by
      match a with
      | ⟨0, _⟩ => exact h.lhs_row _ _
      | ⟨1, _⟩ => exact (h.lhs_col _ _).trans hk)
  have er : d.rhsIdx (ix2 r c) ((contrEquiv1 d K h.rank_contr h.size_contr).symm k) = ix2 k c :=
    funext fun a => Fin.ext (by
      match a with
      | ⟨0, _⟩ => exact (h.rhs_row _ _).trans hk
      | ⟨1, _⟩ => exact h.rhs_col _ _)
  rw [el, er]

/-- A kernel's product into the zero accumulator, over the extended reals, at entry (r, c). -/
theorem IsPlain.matmul_zero_apply (h : IsPlain d) {φ₁ φ₂ : FTy} (prec : Option ContractPrecision)
    (lhs : FVec Ideal (⟨2, ![M, K]⟩ : Shape) φ₁) (rhs : FVec Ideal (⟨2, ![K, N]⟩ : Shape) φ₂) (r : Fin M) (c : Fin N) :
    FloatOps.matmul d prec lhs rhs (constant (⟨2, ![M, N]⟩ : Shape) .f32 0x00000000#32) (ix2 r c)
      = ∑ k : Fin K, lhs (ix2 r k) * rhs (ix2 k c) := by
  rw [Ideal.matmul_constant_zero_apply]
  exact h.sum_contr lhs rhs r c

/-- A host dot_general, over the extended reals, at entry (r, c). -/
theorem IsPlain.dotGeneral_apply (h : IsPlain d) {φ₁ φ₂ : FTy} (prec : Option ContractPrecision) (sched : HostSchedule)
    (lhs : FVec Ideal (⟨2, ![M, K]⟩ : Shape) φ₁) (rhs : FVec Ideal (⟨2, ![K, N]⟩ : Shape) φ₂) (r : Fin M) (c : Fin N) :
    FloatOps.dotGeneral d prec sched lhs rhs (ix2 r c) = ∑ k : Fin K, lhs (ix2 r k) * rhs (ix2 k c) := by
  rw [Ideal.dotGeneral_apply]
  exact h.sum_contr lhs rhs r c

end Idealize.ShloMosaic.PlainDot

end
-- ==== Proof.KerChain.lean ====
/-
  One sub-tile of the kernel body, entry by entry, is the action head of the sub-tile row's two input rows.

  The body treats 256 batch rows at a time. It stacks the 256 state rows over the 256 next-state rows and appends a
  one to each of the 512 rows; multiplies by the first weights with their bias appended as a 33rd row, and rectifies;
  multiplies by the second weights, adds the second bias row and rectifies: the shared net on 512 rows at once. Row p
  of the upper half, row p of the lower half and a one are then laid side by side (65 wide), multiplied by the third
  weights with their bias as a 65th row, rectified, multiplied by the fourth weights, and the last bias row is added.
  The four sub-tiles of a block run this same chain; the printed body cuts it at different places for each, so each
  of the four stored values is first shown to be the one chain.

  Read at entry (p, q): each product into the zero accumulator is a finite sum over the contracted axis; the appended
  one carries the bias through the sum (the row-level law); the casts between float formats are the identity over the
  extended reals.
-/
import proofs.«159193_g11802570129985_cont_main3_81_9_alg».proof.Proof.Gen.KernelIdeal.Skeleton
import proofs.«159193_g11802570129985_cont_main3_81_9_alg».proof.Proof.RowNet
import proofs.«159193_g11802570129985_cont_main3_81_9_alg».proof.Proof.LibPlainDot
import Idealize.ShloMosaic.Lib.Pipeline.Value
import Idealize.ShloMosaic.Lib.ValueLayout
import Idealize.ShloMosaic.Lib.IdealHost

noncomputable section

namespace Cert.KerChain

open Cert.KernelIdeal Cert.KernelIdeal.Gen Idealize.ShloMosaic Idealize.ShloMosaic.ValueIdx Idealize.ShloMosaic.PlainDot
open Cert.RowNet

/-! ## The chain, stage by stage -/

section Stages

variable (s n : Vec Ideal S256x32 .bf16) (w1 : Vec Ideal S33x4096 .bf16) (w2 : Vec Ideal S4096x32 .bf16)
  (c2 : Vec Ideal S1x32 .f32) (w3 : Vec Ideal S65x4096 .bf16) (w4 : Vec Ideal S4096x128 .bf16) (c4 : Vec Ideal S1x128 .f32)

/-- The state rows over the next-state rows, a one appended to each row. -/
def stacked : FVec Ideal S512x33 .bf16 :=
  concatenate S512x33 1
    [⟨S512x32, concatenate S512x32 0
        [⟨S256x32, (shapeCast S256x32 s shapeCasts_S256x32_S256x32 : FVec Ideal S256x32 .bf16)⟩, ⟨S256x32, (shapeCast S256x32 n shapeCasts_S256x32_S256x32 : FVec Ideal S256x32 .bf16)⟩]
        concatenates_S256x32_S256x32_S512x32_d0⟩,
     ⟨S512x1, broadcast S512x1 (Scalar.ofBits (F := Ideal) .bf16 0x3F80#16)⟩]
    concatenates_S512x32_S512x1_S512x33_d1

/-- The shared net's hidden layer on the 512 stacked rows. -/
def hidden1 (x : FVec Ideal S512x33 .bf16) : FVec Ideal S512x4096 .bf16 :=
  truncf .bf16
    (maximumf
      (matmul dot_S512x33_S33x4096_S512x4096_1_0_0_1_n_n none x (shapeCast S33x4096 w1 shapeCasts_S33x4096_S33x4096 : FVec Ideal S33x4096 .bf16)
        (constant S512x4096 .f32 0x00000000#32))
      (broadcast S512x4096 (Scalar.ofBits (F := Ideal) .f32 0x00000000#32)))
    bitsLt_bf16_f32

/-- The shared net's output on the 512 stacked rows. -/
def netOut (h : FVec Ideal S512x4096 .bf16) : FVec Ideal S512x32 .bf16 :=
  truncf .bf16
    (maximumf
      (addf
        (matmul dot_S512x4096_S4096x32_S512x32_1_0_0_1_n_n none h (shapeCast S4096x32 w2 shapeCasts_S4096x32_S4096x32 : FVec Ideal S4096x32 .bf16)
          (constant S512x32 .f32 0x00000000#32))
        (broadcastTo S512x32 (shapeCast S1x32 c2 shapeCasts_S1x32_S1x32 : FVec Ideal S1x32 .f32) broadcasts_S1x32_S512x32))
      (broadcast S512x32 (Scalar.ofBits (F := Ideal) .f32 0x00000000#32)))
    bitsLt_bf16_f32

/-- Upper half, lower half and a one, side by side. -/
def sideBySide (y : FVec Ideal S512x32 .bf16) : FVec Ideal S256x65 .bf16 :=
  concatenate S256x65 1
    [⟨S256x32, extractStridedSlice S256x32 ![0, 0] y slices_S512x32_o0_0_S256x32⟩,
     ⟨S256x32, extractStridedSlice S256x32 ![256, 0] y slices_S512x32_o256_0_S256x32⟩,
     ⟨S256x1, broadcast S256x1 (Scalar.ofBits (F := Ideal) .bf16 0x3F80#16)⟩]
    concatenates_S256x32_S256x32_S256x1_S256x65_d1

/-- The head's hidden layer on the 256 joined rows. -/
def hidden3 (y2 : FVec Ideal S256x65 .bf16) : FVec Ideal S256x4096 .bf16 :=
  truncf .bf16
    (maximumf
      (matmul dot_S256x65_S65x4096_S256x4096_1_0_0_1_n_n none y2 (shapeCast S65x4096 w3 shapeCasts_S65x4096_S65x4096 : FVec Ideal S65x4096 .bf16)
        (constant S256x4096 .f32 0x00000000#32))
      (broadcast S256x4096 (Scalar.ofBits (F := Ideal) .f32 0x00000000#32)))
    bitsLt_bf16_f32

/-- The head's output on the 256 rows. -/
def headOut (h3 : FVec Ideal S256x4096 .bf16) : FVec Ideal S256x128 .f32 :=
  addf
    (matmul dot_S256x4096_S4096x128_S256x128_1_0_0_1_n_n none h3 (shapeCast S4096x128 w4 shapeCasts_S4096x128_S4096x128 : FVec Ideal S4096x128 .bf16)
      (constant S256x128 .f32 0x00000000#32))
    (broadcastTo S256x128 (shapeCast S1x128 c4 shapeCasts_S1x128_S1x128 : FVec Ideal S1x128 .f32) broadcasts_S1x128_S256x128)

/-- One sub-tile's whole chain. -/
def chain : FVec Ideal S256x128 .f32 :=
  headOut w4 c4 (hidden3 w3 (sideBySide (netOut w2 c2 (hidden1 w1 (stacked s n)))))

/-! ## The four stored values are the one chain -/

theorem stored_rows_0 : k0_pay3 (F := Ideal) (k0_pay2 s n w1 w2 c2 w3 w4) c4 = chain s n w1 w2 c2 w3 w4 c4 := rfl

theorem stored_rows_256 :
    k0_pay5 (F := Ideal) (k0_pay4 s n w1 w2 c2 w3) (Scalar.ofBits .f32 0x00000000#32) w4 c4 = chain s n w1 w2 c2 w3 w4 c4 := rfl

theorem stored_rows_512 :
    k0_pay9 (F := Ideal) (k0_pay7 s n w1 w2 c2) (k0_pay8 s n w1 w2 c2) (Scalar.ofBits .bf16 0x3F80#16) w3 w4 c4
      = chain s n w1 w2 c2 w3 w4 c4 := rfl

theorem stored_rows_768 :
    k0_pay1 (F := Ideal) (k0_pay10 s n w1 w2) (k0_pay11 c2) w3 w4 c4 = chain s n w1 w2 c2 w3 w4 c4 := rfl

end Stages

end Cert.KerChain

end
-- ==== Proof.KerRows.lean ====
/-
  The chain of one sub-tile read at an entry, stage by stage, down to the row-level networks.
-/
import proofs.«159193_g11802570129985_cont_main3_81_9_alg».proof.Proof.KerChain

noncomputable section

namespace Cert.KerChain

open Cert.KernelIdeal Cert.KernelIdeal.Gen Idealize.ShloMosaic Idealize.ShloMosaic.ValueIdx Idealize.ShloMosaic.PlainDot
open Cert.RowNet

/-! ## The four products are plain: columns against rows -/

theorem plain1 : IsPlain dot_S512x33_S33x4096_S512x4096_1_0_0_1_n_n := ⟨rfl, rfl, rfl, rfl, rfl, rfl⟩
theorem plain2 : IsPlain dot_S512x4096_S4096x32_S512x32_1_0_0_1_n_n := ⟨rfl, rfl, rfl, rfl, rfl, rfl⟩
theorem plain3 : IsPlain dot_S256x65_S65x4096_S256x4096_1_0_0_1_n_n := ⟨rfl, rfl, rfl, rfl, rfl, rfl⟩
theorem plain4 : IsPlain dot_S256x4096_S4096x128_S256x128_1_0_0_1_n_n := ⟨rfl, rfl, rfl, rfl, rfl, rfl⟩

/-- The appended constant is the real one. -/
theorem one_word : (FloatOps.ofBits (F := Ideal) .bf16 0x3F80#16 : EReal) = 1 := Ideal.ofBits_one_bf16

/-- The rectifier's constant is the real zero. -/
theorem zero_word : (FloatOps.ofBits (F := Ideal) .f32 0x00000000#32 : EReal) = 0 := Ideal.ofBits_zero_f32

section Stages

variable (s n : Vec Ideal S256x32 .bf16) (w1 : Vec Ideal S33x4096 .bf16) (w2 : Vec Ideal S4096x32 .bf16)
  (c2 : Vec Ideal S1x32 .f32) (w3 : Vec Ideal S65x4096 .bf16) (w4 : Vec Ideal S4096x128 .bf16) (c4 : Vec Ideal S1x128 .f32)

/-! ## The stacked rows -/

/-- Row r of the stack: a state row in the upper half, a next-state row in the lower half. -/
def stackRow (r : Fin 512) : Fin 32 → EReal := fun k =>
  if h : r.val < 256 then s (ix2 (⟨r.val, h⟩ : Fin 256) k) else n (ix2 (⟨r.val - 256, by have := r.isLt; omega⟩ : Fin 256) k)

theorem stackRow_upper (p : Fin 256) : stackRow s n (⟨p.val, by have := p.isLt; omega⟩ : Fin 512) = row s p := by
  funext k
  exact dif_pos p.isLt

theorem stackRow_lower (p : Fin 256) : stackRow s n (⟨p.val + 256, by have := p.isLt; omega⟩ : Fin 512) = row n p := by
  funext k
  have h : ¬ p.val + 256 < 256 := by omega
  show (if h : p.val + 256 < 256 then _ else _) = _
  rw [dif_neg h]
  exact congrArg (fun a : Fin 256 => n (ix2 a k)) (Fin.ext (by show p.val + 256 - 256 = p.val; omega))

/-- The first 32 columns of the stack are the stacked rows. -/
theorem stacked_body (r : Fin 512) (k : Fin 32) :
    stacked s n (ix2 r (⟨k.val, Nat.lt_succ_of_lt k.isLt⟩ : Fin 33)) = stackRow s n r k := by
  unfold stacked
  rw [concatenate_pair_apply_left (t := S512x33) (s₁ := S512x32) (s₂ := S512x1) (1 : Fin S512x33.rank) _ _ _
    (ix2 r (⟨k.val, Nat.lt_succ_of_lt k.isLt⟩ : Fin 33)) rfl (ix2 r k)
    (fun b => by match b with | ⟨0, _⟩ => rfl | ⟨1, _⟩ => rfl)]
  unfold stackRow
  by_cases h : r.val < 256
  · rw [dif_pos h,
      concatenate_pair_apply_left (t := S512x32) (s₁ := S256x32) (s₂ := S256x32) (0 : Fin S512x32.rank) _ _ _ (ix2 r k) rfl
        (ix2 (⟨r.val, h⟩ : Fin 256) k) (fun b => by match b with | ⟨0, _⟩ => rfl | ⟨1, _⟩ => rfl),
      shapeCast_self]
  · rw [dif_neg h,
      concatenate_pair_apply_right (t := S512x32) (s₁ := S256x32) (s₂ := S256x32) (0 : Fin S512x32.rank) _ _ _ (ix2 r k) rfl rfl
        (ix2 (⟨r.val - 256, by have := r.isLt; omega⟩ : Fin 256) k)
        (fun b hb => by
          match b with
          | ⟨0, _⟩ => exact absurd rfl hb
          | ⟨1, _⟩ => rfl)
        (by show r.val - 256 + 256 = r.val; omega),
      shapeCast_self]

/-- The 33rd column of the stack is the appended one. -/
theorem stacked_one (r : Fin 512) : stacked s n (ix2 r (⟨32, Nat.lt_succ_self 32⟩ : Fin 33)) = (1 : EReal) := by
  unfold stacked
  rw [concatenate_pair_apply_right (t := S512x33) (s₁ := S512x32) (s₂ := S512x1) (1 : Fin S512x33.rank) _ _ _
    (ix2 r (⟨32, Nat.lt_succ_self 32⟩ : Fin 33)) rfl rfl (ix2 r (0 : Fin 1))
    (fun b hb => by
      match b with
      | ⟨0, _⟩ => rfl
      | ⟨1, _⟩ => exact absurd rfl hb)
    (by rfl)]
  exact one_word

/-! ## The shared net on the stack -/

/-- The hidden layer at row r, for any 33-wide rows whose row r is a 32-wide row with a one appended, against first
    weights whose 33rd row is the bias. -/
theorem hidden1_apply (x : FVec Ideal S512x33 .bf16) (W : Fin 32 → Fin 4096 → EReal) (b : Fin 4096 → EReal)
    (hw : ∀ (k : Fin 32) (j : Fin 4096), w1 (ix2 (⟨k.val, Nat.lt_succ_of_lt k.isLt⟩ : Fin 33) j) = W k j)
    (hb : ∀ j : Fin 4096, w1 (ix2 (⟨32, Nat.lt_succ_self 32⟩ : Fin 33) j) = b j)
    (r : Fin 512) (xr : Fin 32 → EReal)
    (hx : ∀ k : Fin 32, x (ix2 r (⟨k.val, Nat.lt_succ_of_lt k.isLt⟩ : Fin 33)) = xr k)
    (hx1 : x (ix2 r (⟨32, Nat.lt_succ_self 32⟩ : Fin 33)) = 1) (j : Fin 4096) :
    hidden1 w1 x (ix2 r j) = relu (lin W b xr) j := by
  unfold hidden1
  simp only [truncf_apply, maximumf_apply, broadcast_apply, matmul]
  rw [plain1.matmul_zero_apply, shapeCast_self, zero_word]
  exact congrArg (fun t : EReal => max t 0)
    (sum_bias_carried (K := 32) (fun k => x (ix2 r k)) (fun k => w1 (ix2 k j)) xr (fun k => W k j) (b j) hx hx1
      (fun k => hw k j) (hb j))

/-- The net's output at row r, for any hidden rows whose row r is a given row. -/
theorem netOut_apply (h : FVec Ideal S512x4096 .bf16) (W : Fin 4096 → Fin 32 → EReal) (b : Fin 32 → EReal)
    (hw : ∀ (k : Fin 4096) (o : Fin 32), w2 (ix2 k o) = W k o) (hb : ∀ o : Fin 32, c2 (ix2 (0 : Fin 1) o) = b o)
    (r : Fin 512) (hr : Fin 4096 → EReal) (hh : ∀ k : Fin 4096, h (ix2 r k) = hr k) (o : Fin 32) :
    netOut w2 c2 h (ix2 r o) = relu (lin W b hr) o := by
  unfold netOut
  simp only [truncf_apply, maximumf_apply, addf_apply, broadcast_apply, matmul]
  rw [plain2.matmul_zero_apply, shapeCast_self, broadcastTo_1b_ab_apply, shapeCast_self, zero_word, hb]
  simp only [hh, hw]
  rfl

/-! ## The head on the joined rows -/

/-- The first 64 columns of the side-by-side rows: the upper half's row p, then the lower half's row p. -/
theorem sideBySide_body (y : FVec Ideal S512x32 .bf16) (p : Fin 256) (u v : Fin 32 → EReal)
    (hu : ∀ o : Fin 32, y (ix2 (⟨p.val, by have := p.isLt; omega⟩ : Fin 512) o) = u o)
    (hv : ∀ o : Fin 32, y (ix2 (⟨p.val + 256, by have := p.isLt; omega⟩ : Fin 512) o) = v o) (k : Fin 64) :
    sideBySide y (ix2 p (⟨k.val, Nat.lt_succ_of_lt k.isLt⟩ : Fin 65)) = join (A := 32) (B := 32) u v k := by
  unfold sideBySide
  by_cases hk : k.val < 32
  · refine Eq.trans ?_ (join_left (A := 32) (B := 32) u v k hk).symm
    rw [concatenate_apply_piece (t := S256x65) (1 : Fin S256x65.rank) _ _ (ix2 p (⟨k.val, Nat.lt_succ_of_lt k.isLt⟩ : Fin 65))
      0 (by show (0 : Nat) < 3; omega) S256x32 _ rfl rfl 0 rfl (ix2 p (⟨k.val, hk⟩ : Fin 32))
      (fun b hb => by
        match b with
        | ⟨0, _⟩ => rfl
        | ⟨1, _⟩ => exact absurd rfl hb)
      (by show 0 + k.val = k.val; omega),
      slice2_axis0_apply 0 y _ p (⟨k.val, hk⟩ : Fin 32) (⟨p.val, by have := p.isLt; omega⟩ : Fin 512) (by show p.val = 0 + p.val; omega)]
    exact hu ⟨k.val, hk⟩
  · refine Eq.trans ?_ (join_right (A := 32) (B := 32) u v k hk).symm
    rw [concatenate_apply_piece (t := S256x65) (1 : Fin S256x65.rank) _ _ (ix2 p (⟨k.val, Nat.lt_succ_of_lt k.isLt⟩ : Fin 65))
      1 (by show (1 : Nat) < 3; omega) S256x32 _ rfl rfl 32 rfl (ix2 p (⟨k.val - 32, by have := k.isLt; omega⟩ : Fin 32))
      (fun b hb => by
        match b with
        | ⟨0, _⟩ => rfl
        | ⟨1, _⟩ => exact absurd rfl hb)
      (by show 32 + (k.val - 32) = k.val; omega),
      slice2_axis0_apply 256 y _ p (⟨k.val - 32, by have := k.isLt; omega⟩ : Fin 32) (⟨p.val + 256, by have := p.isLt; omega⟩ : Fin 512)
        (by show p.val + 256 = 256 + p.val; omega)]
    exact hv ⟨k.val - 32, by have := k.isLt; omega⟩

/-- The 65th column of the side-by-side rows is the appended one. -/
theorem sideBySide_one (y : FVec Ideal S512x32 .bf16) (p : Fin 256) :
    sideBySide y (ix2 p (⟨64, Nat.lt_succ_self 64⟩ : Fin 65)) = (1 : EReal) := by
  unfold sideBySide
  rw [concatenate_apply_piece (t := S256x65) (1 : Fin S256x65.rank) _ _ (ix2 p (⟨64, Nat.lt_succ_self 64⟩ : Fin 65))
    2 (by show (2 : Nat) < 3; omega) S256x1 _ rfl rfl 64 rfl (ix2 p (0 : Fin 1))
    (fun b hb => by
      match b with
      | ⟨0, _⟩ => rfl
      | ⟨1, _⟩ => exact absurd rfl hb)
    (by rfl)]
  exact one_word

/-- The head's hidden layer at row p, for any 65-wide rows whose row p is a 64-wide row with a one appended, against
    third weights whose 65th row is the bias. -/
theorem hidden3_apply (y2 : FVec Ideal S256x65 .bf16) (W : Fin 64 → Fin 4096 → EReal) (b : Fin 4096 → EReal)
    (hw : ∀ (k : Fin 64) (j : Fin 4096), w3 (ix2 (⟨k.val, Nat.lt_succ_of_lt k.isLt⟩ : Fin 65) j) = W k j)
    (hb : ∀ j : Fin 4096, w3 (ix2 (⟨64, Nat.lt_succ_self 64⟩ : Fin 65) j) = b j)
    (p : Fin 256) (yr : Fin 64 → EReal)
    (hy : ∀ k : Fin 64, y2 (ix2 p (⟨k.val, Nat.lt_succ_of_lt k.isLt⟩ : Fin 65)) = yr k)
    (hy1 : y2 (ix2 p (⟨64, Nat.lt_succ_self 64⟩ : Fin 65)) = 1) (j : Fin 4096) :
    hidden3 w3 y2 (ix2 p j) = relu (lin W b yr) j := by
  unfold hidden3
  simp only [truncf_apply, maximumf_apply, broadcast_apply, matmul]
  rw [plain3.matmul_zero_apply, shapeCast_self, zero_word]
  exact congrArg (fun t : EReal => max t 0)
    (sum_bias_carried (K := 64) (fun k => y2 (ix2 p k)) (fun k => w3 (ix2 k j)) yr (fun k => W k j) (b j) hy hy1
      (fun k => hw k j) (hb j))

/-- The head's output at row p, for any hidden rows whose row p is a given row. -/
theorem headOut_apply (h3 : FVec Ideal S256x4096 .bf16) (W : Fin 4096 → Fin 128 → EReal) (b : Fin 128 → EReal)
    (hw : ∀ (k : Fin 4096) (q : Fin 128), w4 (ix2 k q) = W k q) (hb : ∀ q : Fin 128, c4 (ix2 (0 : Fin 1) q) = b q)
    (p : Fin 256) (hr : Fin 4096 → EReal) (hh : ∀ k : Fin 4096, h3 (ix2 p k) = hr k) (q : Fin 128) :
    headOut w4 c4 h3 (ix2 p q) = lin W b hr q := by
  unfold headOut
  simp only [addf_apply, matmul]
  rw [plain4.matmul_zero_apply, shapeCast_self, broadcastTo_1b_ab_apply, shapeCast_self, hb]
  simp only [hh, hw]
  rfl

/-! ## The whole chain at an entry -/

/-- Entry (p, q) of one sub-tile's chain is the action head of the sub-tile's state row p and next-state row p,
    when the first and third weight blocks carry their biases as a last row. -/
theorem chain_apply (W1 : Fin 32 → Fin 4096 → EReal) (b1 : Fin 4096 → EReal) (W2 : Fin 4096 → Fin 32 → EReal) (b2 : Fin 32 → EReal)
    (W3 : Fin 64 → Fin 4096 → EReal) (b3 : Fin 4096 → EReal) (W4 : Fin 4096 → Fin 128 → EReal) (b4 : Fin 128 → EReal)
    (hw1 : ∀ (k : Fin 32) (j : Fin 4096), w1 (ix2 (⟨k.val, Nat.lt_succ_of_lt k.isLt⟩ : Fin 33) j) = W1 k j)
    (hb1 : ∀ j : Fin 4096, w1 (ix2 (⟨32, Nat.lt_succ_self 32⟩ : Fin 33) j) = b1 j)
    (hw2 : ∀ (k : Fin 4096) (o : Fin 32), w2 (ix2 k o) = W2 k o) (hb2 : ∀ o : Fin 32, c2 (ix2 (0 : Fin 1) o) = b2 o)
    (hw3 : ∀ (k : Fin 64) (j : Fin 4096), w3 (ix2 (⟨k.val, Nat.lt_succ_of_lt k.isLt⟩ : Fin 65) j) = W3 k j)
    (hb3 : ∀ j : Fin 4096, w3 (ix2 (⟨64, Nat.lt_succ_self 64⟩ : Fin 65) j) = b3 j)
    (hw4 : ∀ (k : Fin 4096) (q : Fin 128), w4 (ix2 k q) = W4 k q) (hb4 : ∀ q : Fin 128, c4 (ix2 (0 : Fin 1) q) = b4 q)
    (p : Fin 256) (q : Fin 128) :
    chain s n w1 w2 c2 w3 w4 c4 (ix2 p q) = head W1 b1 W2 b2 W3 b3 W4 b4 (row s p) (row n p) q := by
  -- the shared net on every row of the stack
  have hnet : ∀ (r : Fin 512) (o : Fin 32),
      netOut w2 c2 (hidden1 w1 (stacked s n)) (ix2 r o) = net W1 b1 W2 b2 (stackRow s n r) o := fun r o =>
    netOut_apply w2 c2 _ W2 b2 hw2 hb2 r (relu (lin W1 b1 (stackRow s n r)))
      (fun j => hidden1_apply w1 (stacked s n) W1 b1 hw1 hb1 r (stackRow s n r) (stacked_body s n r) (stacked_one s n r) j) o
  unfold chain
  refine headOut_apply w4 c4 _ W4 b4 hw4 hb4 p
    (relu (lin W3 b3 (join (net W1 b1 W2 b2 (row s p)) (net W1 b1 W2 b2 (row n p))))) (fun j => ?_) q
  refine hidden3_apply w3 _ W3 b3 hw3 hb3 p _ (fun k => ?_) (sideBySide_one _ p) j
  refine sideBySide_body _ p _ _ (fun o => ?_) (fun o => ?_) k
  · rw [hnet, stackRow_upper]
  · rw [hnet, stackRow_lower]

end Stages

end Cert.KerChain

end
-- ==== Proof.KerBlock.lean ====
/-
  From one grid point's block to the whole result array.

  Grid point t of the 16 works on batch rows 1024 t … 1024 t + 1023: its state block and next-state block are those
  rows of the two (format-converted) input arrays, and the six weight and bias windows are whole arrays at every
  point — the first weights with the first bias appended as a 33rd row, the third weights with the third bias as a
  65th row, the second and fourth bias as one-row arrays; the host operations before the call build exactly these.
  The body's four stores tile the 1024-row output block in 256-row sub-tiles, each holding the chain of its own
  256 rows, so the block is the row-by-row action head of rows 1024 t …; the 16 blocks tile the result array.
-/
import proofs.«159193_g11802570129985_cont_main3_81_9_alg».proof.Proof.Gen.KernelIdeal.Value
import proofs.«159193_g11802570129985_cont_main3_81_9_alg».proof.Proof.KerRows
import Idealize.ShloMosaic.Lib.StableHlo.Run
import Idealize.ShloMosaic.Lib.ValueLayout

noncomputable section

namespace Cert.KerBlock

open Cert.KernelIdeal Cert.KernelIdeal.Gen Cert.KernelIdeal.Value
open Idealize.ShloMosaic Idealize.ShloMosaic.TcCoe Idealize.SL.Sem Idealize.ShloMosaic.ValueIdx Idealize.ShloMosaic.StableHlo
open Idealize.ShloMosaic.Pipeline (Dat)
open Cert.RowNet Cert.KerChain

variable (m : (ℓ : Loc nD τ sig) → Buf (Elt Ideal) ℓ) (ρ : Dev nD → PrngReg)

/-! ## The argument arrays and the result -/

abbrev a0 (c : Dev nD) : FVec Ideal S16384x32 .f32 := m ((c : Thread nD τ).loc main_arg0)
abbrev a1 (c : Dev nD) : FVec Ideal S16384x32 .f32 := m ((c : Thread nD τ).loc main_arg1)
abbrev a2 (c : Dev nD) : FVec Ideal S32x4096 .f32 := m ((c : Thread nD τ).loc main_arg2)
abbrev a3 (c : Dev nD) : FVec Ideal S4096 .f32 := m ((c : Thread nD τ).loc main_arg3)
abbrev a4 (c : Dev nD) : FVec Ideal S4096x32 .f32 := m ((c : Thread nD τ).loc main_arg4)
abbrev a5 (c : Dev nD) : FVec Ideal S32 .f32 := m ((c : Thread nD τ).loc main_arg5)
abbrev a6 (c : Dev nD) : FVec Ideal S64x4096 .f32 := m ((c : Thread nD τ).loc main_arg6)
abbrev a7 (c : Dev nD) : FVec Ideal S4096 .f32 := m ((c : Thread nD τ).loc main_arg7)
abbrev a8 (c : Dev nD) : FVec Ideal S4096x128 .f32 := m ((c : Thread nD τ).loc main_arg8)
abbrev a9 (c : Dev nD) : FVec Ideal S128 .f32 := m ((c : Thread nD τ).loc main_arg9)

/-- The result array as the row-by-row action head of the ten arguments. -/
abbrev res (c : Dev nD) : FVec Ideal S16384x128 .f32 :=
  result (a0 m c) (a1 m c) (a2 m c) (a3 m c) (a4 m c) (a5 m c) (a6 m c) (a7 m c) (a8 m c) (a9 m c)

/-! ## The arrays the region finds: what the host operations before the call wrote -/

theorem state_arr (c : Dev nD) : (V m c main_v0 : S16384x32.Idx → EReal) = a0 m c := by
  dsimp only [V, hostOps0]; after_results; rfl

theorem next_arr (c : Dev nD) : (V m c main_v1 : S16384x32.Idx → EReal) = a1 m c := by
  dsimp only [V, hostOps0]; after_results; rfl

theorem w1_arr (c : Dev nD) : (V m c main_v4 : S33x4096.Idx → EReal)
    = concatenate S33x4096 0 [⟨S32x4096, a2 m c⟩, ⟨S1x4096, broadcastInDim S1x4096 ![1] bcast_S4096_S1x4096_1 (a3 m c)⟩]
        concatenates_S32x4096_S1x4096_S33x4096_d0 := by
  dsimp only [V, hostOps0]; after_results; rfl

theorem w2_arr (c : Dev nD) : (V m c main_v8 : S4096x32.Idx → EReal) = a4 m c := by
  dsimp only [V, hostOps0]; after_results; rfl

theorem c2_arr (c : Dev nD) : (V m c main_v10 : S1x32.Idx → EReal) = shapeCast S1x32 (a5 m c) shapeCasts_S32_S1x32 := by
  dsimp only [V, hostOps0]; after_results; rfl

theorem w3_arr (c : Dev nD) : (V m c main_v7 : S65x4096.Idx → EReal)
    = concatenate S65x4096 0 [⟨S64x4096, a6 m c⟩, ⟨S1x4096, broadcastInDim S1x4096 ![1] bcast_S4096_S1x4096_1 (a7 m c)⟩]
        concatenates_S64x4096_S1x4096_S65x4096_d0 := by
  dsimp only [V, hostOps0]; after_results; rfl

theorem w4_arr (c : Dev nD) : (V m c main_v9 : S4096x128.Idx → EReal) = a8 m c := by
  dsimp only [V, hostOps0]; after_results; rfl

theorem c4_arr (c : Dev nD) : (V m c main_v11 : S1x128.Idx → EReal) = shapeCast S1x128 (a9 m c) shapeCasts_S128_S1x128 := by
  dsimp only [V, hostOps0]; after_results; rfl

/-- A bias laid out as a one-row array, read at a column. -/
theorem bias_row {N : Nat} (b : (⟨1, ![N]⟩ : Shape).Idx → EReal) (hN : N ≠ 1)
    (h : (⟨1, ![N]⟩ : Shape).BroadcastsInDim (⟨2, ![1, N]⟩ : Shape) (![1] : Fin 1 → Fin 2)) (j : Fin N) :
    broadcastInDim (⟨2, ![1, N]⟩ : Shape) ![1] h b (ix2 (0 : Fin 1) j) = b (ix1 j) :=
  broadcastInDim_apply _ h b (ix2 (0 : Fin 1) j) (ix1 j) (fun a => match a with
    | ⟨0, _⟩ => by show j.val = if N = 1 then 0 else j.val; rw [if_neg hN])

/-- The first weights' window: rows below 32 are the first weights, -/
theorem w1_body (c : Dev nD) (k : Fin 32) (j : Fin 4096) :
    (V m c main_v4 : S33x4096.Idx → EReal) (ix2 (⟨k.val, Nat.lt_succ_of_lt k.isLt⟩ : Fin 33) j) = mat (a2 m c) k j := by
  rw [w1_arr,
    concatenate_pair_apply_left (t := S33x4096) (s₁ := S32x4096) (s₂ := S1x4096) (0 : Fin S33x4096.rank) _ _ _
      (ix2 (⟨k.val, Nat.lt_succ_of_lt k.isLt⟩ : Fin 33) j) rfl (ix2 k j)
      (fun b => by match b with | ⟨0, _⟩ => rfl | ⟨1, _⟩ => rfl)]
  rfl

/-- and row 32 is the first bias. -/
theorem w1_bias (c : Dev nD) (j : Fin 4096) :
    (V m c main_v4 : S33x4096.Idx → EReal) (ix2 (⟨32, Nat.lt_succ_self 32⟩ : Fin 33) j) = vec (a3 m c) j := by
  rw [w1_arr,
    concatenate_pair_apply_right (t := S33x4096) (s₁ := S32x4096) (s₂ := S1x4096) (0 : Fin S33x4096.rank) _ _ _
      (ix2 (⟨32, Nat.lt_succ_self 32⟩ : Fin 33) j) rfl rfl (ix2 (0 : Fin 1) j)
      (fun b hb => by
        match b with
        | ⟨0, _⟩ => exact absurd rfl hb
        | ⟨1, _⟩ => rfl)
      (by rfl)]
  exact bias_row (a3 m c) (by decide) _ j

/-- The third weights' window: rows below 64 are the third weights, -/
theorem w3_body (c : Dev nD) (k : Fin 64) (j : Fin 4096) :
    (V m c main_v7 : S65x4096.Idx → EReal) (ix2 (⟨k.val, Nat.lt_succ_of_lt k.isLt⟩ : Fin 65) j) = mat (a6 m c) k j := by
  rw [w3_arr,
    concatenate_pair_apply_left (t := S65x4096) (s₁ := S64x4096) (s₂ := S1x4096) (0 : Fin S65x4096.rank) _ _ _
      (ix2 (⟨k.val, Nat.lt_succ_of_lt k.isLt⟩ : Fin 65) j) rfl (ix2 k j)
      (fun b => by match b with | ⟨0, _⟩ => rfl | ⟨1, _⟩ => rfl)]
  rfl

/-- and row 64 is the third bias. -/
theorem w3_bias (c : Dev nD) (j : Fin 4096) :
    (V m c main_v7 : S65x4096.Idx → EReal) (ix2 (⟨64, Nat.lt_succ_self 64⟩ : Fin 65) j) = vec (a7 m c) j := by
  rw [w3_arr,
    concatenate_pair_apply_right (t := S65x4096) (s₁ := S64x4096) (s₂ := S1x4096) (0 : Fin S65x4096.rank) _ _ _
      (ix2 (⟨64, Nat.lt_succ_self 64⟩ : Fin 65) j) rfl rfl (ix2 (0 : Fin 1) j)
      (fun b hb => by
        match b with
        | ⟨0, _⟩ => exact absurd rfl hb
        | ⟨1, _⟩ => rfl)
      (by rfl)]
  exact bias_row (a7 m c) (by decide) _ j

/-- The second bias as a one-row array. -/
theorem c2_row (c : Dev nD) (o : Fin 32) : (V m c main_v10 : S1x32.Idx → EReal) (ix2 (0 : Fin 1) o) = vec (a5 m c) o := by
  rw [c2_arr]; exact shapeCast_a_1a_apply (a5 m c) _ 0 o

/-- The fourth bias as a one-row array. -/
theorem c4_row (c : Dev nD) (q : Fin 128) : (V m c main_v11 : S1x128.Idx → EReal) (ix2 (0 : Fin 1) q) = vec (a9 m c) q := by
  rw [c4_arr]; exact shapeCast_a_1a_apply (a9 m c) _ 0 q

/-! ## The windows' blocks at a grid point -/

theorem point_lt (t : Fin cfg0.N) : t.val < 16 := lt_of_lt_of_eq t.isLt N_0

/-- The index maps, decided over the 16 points: the two batch windows and the output move down one block per point,
    the weight and bias windows stay. -/
theorem idx_batch : ∀ t : Fin cfg0.N, win0_0.index t (0 : Fin 2) = t.val ∧ win0_0.index t (1 : Fin 2) = 0
    ∧ win0_1.index t (0 : Fin 2) = t.val ∧ win0_1.index t (1 : Fin 2) = 0
    ∧ win0_8.index t (0 : Fin 2) = t.val ∧ win0_8.index t (1 : Fin 2) = 0 :=
  (by decide +kernel : ∀ t : Fin grid0.N, _)

theorem idx_whole : ∀ t : Fin cfg0.N, win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0 :=
  (by decide +kernel : ∀ t : Fin grid0.N, _)

/-- The state block at point t is rows 1024 t … of the state array. -/
theorem state_blk (c : Dev nD) (t : Fin cfg0.N) (r : Fin 1024) (k : Fin 32) :
    (iblk m c 0 t : Vec Ideal S1024x32 .bf16) (ix2 r k)
      = a0 m c (ix2 (⟨1024 * t.val + r.val, by have := point_lt t; have := r.isLt; omega⟩ : Fin 16384) k) := by
  rw [← state_arr]
  unfold iblk
  rw [View.read_apply]
  show V m c main_v0 _ = V m c main_v0 _
  congr 1
  funext a
  apply Fin.ext
  obtain ⟨e0, e1, -⟩ := idx_batch t
  match a with
  | ⟨0, _⟩ => show win0_0.index t (0 : Fin 2) * 1024 + 1 * r.val = 1024 * t.val + r.val; rw [e0]; omega
  | ⟨1, _⟩ => show win0_0.index t (1 : Fin 2) * 32 + 1 * k.val = k.val; rw [e1]; omega

/-- The next-state block at point t is rows 1024 t … of the next-state array. -/
theorem next_blk (c : Dev nD) (t : Fin cfg0.N) (r : Fin 1024) (k : Fin 32) :
    (iblk m c 1 t : Vec Ideal S1024x32 .bf16) (ix2 r k)
      = a1 m c (ix2 (⟨1024 * t.val + r.val, by have := point_lt t; have := r.isLt; omega⟩ : Fin 16384) k) := by
  rw [← next_arr]
  unfold iblk
  rw [View.read_apply]
  show V m c main_v1 _ = V m c main_v1 _
  congr 1
  funext a
  apply Fin.ext
  obtain ⟨-, -, e0, e1, -⟩ := idx_batch t
  match a with
  | ⟨0, _⟩ => show win0_1.index t (0 : Fin 2) * 1024 + 1 * r.val = 1024 * t.val + r.val; rw [e0]; omega
  | ⟨1, _⟩ => show win0_1.index t (1 : Fin 2) * 32 + 1 * k.val = k.val; rw [e1]; omega

/-- The six weight and bias windows are whole arrays at every point. -/
theorem w1_blk (c : Dev nD) (t : Fin cfg0.N) (x : S33x4096.Idx) :
    (iblk m c 2 t : Vec Ideal S33x4096 .bf16) x = (V m c main_v4 : S33x4096.Idx → EReal) x := by
  unfold iblk
  rw [View.read_apply]
  show V m c main_v4 _ = V m c main_v4 _
  congr 1
  funext a
  apply Fin.ext
  obtain ⟨e0, e1, -⟩ := idx_whole t
  match a with
  | ⟨0, _⟩ => show win0_2.index t (0 : Fin 2) * 33 + 1 * (x 0).val = (x 0).val; rw [e0]; omega
  | ⟨1, _⟩ => show win0_2.index t (1 : Fin 2) * 4096 + 1 * (x 1).val = (x 1).val; rw [e1]; omega

theorem w2_blk (c : Dev nD) (t : Fin cfg0.N) (x : S4096x32.Idx) :
    (iblk m c 3 t : Vec Ideal S4096x32 .bf16) x = (V m c main_v8 : S4096x32.Idx → EReal) x := by
  unfold iblk
  rw [View.read_apply]
  show V m c main_v8 _ = V m c main_v8 _
  congr 1
  funext a
  apply Fin.ext
  obtain ⟨-, -, e0, e1, -⟩ := idx_whole t
  match a with
  | ⟨0, _⟩ => show win0_3.index t (0 : Fin 2) * 4096 + 1 * (x 0).val = (x 0).val; rw [e0]; omega
  | ⟨1, _⟩ => show win0_3.index t (1 : Fin 2) * 32 + 1 * (x 1).val = (x 1).val; rw [e1]; omega

theorem c2_blk (c : Dev nD) (t : Fin cfg0.N) (x : S1x32.Idx) :
    (iblk m c 4 t : Vec Ideal S1x32 .f32) x = (V m c main_v10 : S1x32.Idx → EReal) x := by
  unfold iblk
  rw [View.read_apply]
  show V m c main_v10 _ = V m c main_v10 _
  congr 1
  funext a
  apply Fin.ext
  obtain ⟨-, -, -, -, e0, e1, -⟩ := idx_whole t
  match a with
  | ⟨0, _⟩ => show win0_4.index t (0 : Fin 2) * 1 + 1 * (x 0).val = (x 0).val; rw [e0]; omega
  | ⟨1, _⟩ => show win0_4.index t (1 : Fin 2) * 32 + 1 * (x 1).val = (x 1).val; rw [e1]; omega

theorem w3_blk (c : Dev nD) (t : Fin cfg0.N) (x : S65x4096.Idx) :
    (iblk m c 5 t : Vec Ideal S65x4096 .bf16) x = (V m c main_v7 : S65x4096.Idx → EReal) x := by
  unfold iblk
  rw [View.read_apply]
  show V m c main_v7 _ = V m c main_v7 _
  congr 1
  funext a
  apply Fin.ext
  obtain ⟨-, -, -, -, -, -, e0, e1, -⟩ := idx_whole t
  match a with
  | ⟨0, _⟩ => show win0_5.index t (0 : Fin 2) * 65 + 1 * (x 0).val = (x 0).val; rw [e0]; omega
  | ⟨1, _⟩ => show win0_5.index t (1 : Fin 2) * 4096 + 1 * (x 1).val = (x 1).val; rw [e1]; omega

theorem w4_blk (c : Dev nD) (t : Fin cfg0.N) (x : S4096x128.Idx) :
    (iblk m c 6 t : Vec Ideal S4096x128 .bf16) x = (V m c main_v9 : S4096x128.Idx → EReal) x := by
  unfold iblk
  rw [View.read_apply]
  show V m c main_v9 _ = V m c main_v9 _
  congr 1
  funext a
  apply Fin.ext
  obtain ⟨-, -, -, -, -, -, -, -, e0, e1, -⟩ := idx_whole t
  match a with
  | ⟨0, _⟩ => show win0_6.index t (0 : Fin 2) * 4096 + 1 * (x 0).val = (x 0).val; rw [e0]; omega
  | ⟨1, _⟩ => show win0_6.index t (1 : Fin 2) * 128 + 1 * (x 1).val = (x 1).val; rw [e1]; omega

theorem c4_blk (c : Dev nD) (t : Fin cfg0.N) (x : S1x128.Idx) :
    (iblk m c 7 t : Vec Ideal S1x128 .f32) x = (V m c main_v11 : S1x128.Idx → EReal) x := by
  unfold iblk
  rw [View.read_apply]
  show V m c main_v11 _ = V m c main_v11 _
  congr 1
  funext a
  apply Fin.ext
  obtain ⟨-, -, -, -, -, -, -, -, -, -, e0, e1⟩ := idx_whole t
  match a with
  | ⟨0, _⟩ => show win0_7.index t (0 : Fin 2) * 1 + 1 * (x 0).val = (x 0).val; rw [e0]; omega
  | ⟨1, _⟩ => show win0_7.index t (1 : Fin 2) * 128 + 1 * (x 1).val = (x 1).val; rw [e1]; omega

end Cert.KerBlock

end
-- ==== Proof.KerArray.lean ====
/-
  The output block of a grid point, and the whole result array after the run.
-/
import proofs.«159193_g11802570129985_cont_main3_81_9_alg».proof.Proof.KerBlock

noncomputable section

namespace Cert.KerBlock

open Cert.KernelIdeal Cert.KernelIdeal.Gen Cert.KernelIdeal.Value
open Idealize.ShloMosaic Idealize.ShloMosaic.TcCoe Idealize.SL.Sem Idealize.ShloMosaic.ValueIdx Idealize.ShloMosaic.StableHlo
open Idealize.ShloMosaic.Pipeline (Dat)
open Cert.RowNet Cert.KerChain

variable (m : (ℓ : Loc nD τ sig) → Buf (Elt Ideal) ℓ) (ρ : Dev nD → PrngReg)

theorem zero_offsets : (![0, 0] : Fin 2 → Nat) = fun _ => 0 := funext fun a => by fin_cases a <;> rfl

/-- Rows o … o + R - 1 of a rank-two block, read at (p, k): the block's entry (o + p, k). -/
theorem rows_emb {A B R : Nat} (o : Nat)
    (inb : ∀ a, (![o, 0] : Fin 2 → Nat) a + (⟨2, ![R, B]⟩ : Shape).size a ≤ (⟨2, ![A, B]⟩ : Shape).size a)
    (p : Fin R) (k : Fin B) (h : o + p.val < A) :
    (Rect.unit (s := (⟨2, ![A, B]⟩ : Shape)) ![o, 0] (⟨2, ![R, B]⟩ : Shape).size inb).emb (ix2 p k)
      = ix2 (⟨o + p.val, h⟩ : Fin A) k := by
  funext a
  apply Fin.ext
  match a with
  | ⟨0, _⟩ => show o + 1 * p.val = o + p.val; omega
  | ⟨1, _⟩ => show 0 + 1 * k.val = k.val; omega

/-- The output block of point t as a function of the block's index: the result array's rows 1024 t …. -/
def blockRes (c : Dev nD) (t : Fin cfg0.N) : Vec Ideal S1024x128 .f32 := fun y =>
  res m c (ix2 (⟨1024 * t.val + (y 0).val, by have := point_lt t; have := idx2_lt0 y; omega⟩ : Fin 16384)
    (⟨(y 1).val, idx2_lt1 y⟩ : Fin 128))

/-- One 256-row sub-tile: the chain of rows o … o + 255 of the two batch blocks against the six whole windows is
    rows o … of the output block. Stated over any blocks with the contents the windows have at point t. -/
theorem subtile_entry (c : Dev nD) (t : Fin cfg0.N)
    (x0 x1 : Vec Ideal S1024x32 .bf16) (x2 : Vec Ideal S33x4096 .bf16) (x3 : Vec Ideal S4096x32 .bf16)
    (x4 : Vec Ideal S1x32 .f32) (x5 : Vec Ideal S65x4096 .bf16) (x6 : Vec Ideal S4096x128 .bf16) (x7 : Vec Ideal S1x128 .f32)
    (h0 : ∀ (r : Fin 1024) (k : Fin 32), x0 (ix2 r k)
      = a0 m c (ix2 (⟨1024 * t.val + r.val, by have := point_lt t; have := r.isLt; omega⟩ : Fin 16384) k))
    (h1 : ∀ (r : Fin 1024) (k : Fin 32), x1 (ix2 r k)
      = a1 m c (ix2 (⟨1024 * t.val + r.val, by have := point_lt t; have := r.isLt; omega⟩ : Fin 16384) k))
    (h2 : ∀ x, x2 x = (V m c main_v4 : S33x4096.Idx → EReal) x) (h3 : ∀ x, x3 x = (V m c main_v8 : S4096x32.Idx → EReal) x)
    (h4 : ∀ x, x4 x = (V m c main_v10 : S1x32.Idx → EReal) x) (h5 : ∀ x, x5 x = (V m c main_v7 : S65x4096.Idx → EReal) x)
    (h6 : ∀ x, x6 x = (V m c main_v9 : S4096x128.Idx → EReal) x) (h7 : ∀ x, x7 x = (V m c main_v11 : S1x128.Idx → EReal) x)
    (o : Nat) (ho : o + 256 ≤ 1024)
    (inbS : ∀ a, (![o, 0] : Fin 2 → Nat) a + S256x32.size a ≤ S1024x32.size a)
    (inbO : ∀ a, (![o, 0] : Fin 2 → Nat) a + S256x128.size a ≤ S1024x128.size a)
    (x : S256x128.Idx) :
    chain (View.ld x0 (Rect.unit (s := S1024x32) ![o, 0] S256x32.size inbS))
        (View.ld x1 (Rect.unit (s := S1024x32) ![o, 0] S256x32.size inbS))
        (View.ld x2 r0_1) (View.ld x3 r0_2) (View.ld x4 r0_3) (View.ld x5 r0_4) (View.ld x6 r0_5) (View.ld x7 r0_6) x
      = blockRes m c t ((Rect.unit (s := S1024x128) ![o, 0] S256x128.size inbO).emb x) := by
  obtain ⟨p, q, rfl⟩ : ∃ (p : Fin 256) (q : Fin 128), x = ix2 p q := ⟨x 0, x 1, eq_ix2 x⟩
  have hp : o + p.val < 1024 := by have := p.isLt; omega
  simp only [View.ld_unit_zero (S := S33x4096) zero_offsets, View.ld_unit_zero (S := S4096x32) zero_offsets,
    View.ld_unit_zero (S := S1x32) zero_offsets, View.ld_unit_zero (S := S65x4096) zero_offsets,
    View.ld_unit_zero (S := S4096x128) zero_offsets, View.ld_unit_zero (S := S1x128) zero_offsets]
  rw [chain_apply _ _ x2 x3 x4 x5 x6 x7 (mat (a2 m c)) (vec (a3 m c)) (mat (a4 m c)) (vec (a5 m c)) (mat (a6 m c)) (vec (a7 m c))
    (mat (a8 m c)) (vec (a9 m c))
    (fun k j => (h2 _).trans (w1_body m c k j)) (fun j => (h2 _).trans (w1_bias m c j))
    (fun k o => (h3 _).trans (congrFun (w2_arr m c) _)) (fun o => (h4 _).trans (c2_row m c o))
    (fun k j => (h5 _).trans (w3_body m c k j)) (fun j => (h5 _).trans (w3_bias m c j))
    (fun k q => (h6 _).trans (congrFun (w4_arr m c) _)) (fun q => (h7 _).trans (c4_row m c q)) p q]
  -- the two input rows of the sub-tile's row p are the arrays' rows 1024 t + o + p
  have hi : 1024 * t.val + (o + p.val) < 16384 := by have := point_lt t; omega
  have es : row (View.ld x0 (Rect.unit (s := S1024x32) ![o, 0] S256x32.size inbS)) p
      = row (a0 m c) (⟨1024 * t.val + (o + p.val), hi⟩ : Fin 16384) := by
    funext k
    show x0 ((Rect.unit (s := S1024x32) ![o, 0] S256x32.size inbS).emb (ix2 p k)) = _
    rw [rows_emb o inbS p k hp, h0]
    rfl
  have en : row (View.ld x1 (Rect.unit (s := S1024x32) ![o, 0] S256x32.size inbS)) p
      = row (a1 m c) (⟨1024 * t.val + (o + p.val), hi⟩ : Fin 16384) := by
    funext k
    show x1 ((Rect.unit (s := S1024x32) ![o, 0] S256x32.size inbS).emb (ix2 p k)) = _
    rw [rows_emb o inbS p k hp, h1]
    rfl
  rw [es, en, rows_emb o inbO p q hp]
  rfl

/-- The four stores of the body leave the output block at point t holding rows 1024 t … of the result. -/
theorem out_block (c : Dev nD) (t : Fin cfg0.N) :
    out0_8 (iblk m c 0 t) (iblk m c 1 t) (iblk m c 2 t) (iblk m c 3 t) (iblk m c 4 t) (iblk m c 5 t) (iblk m c 6 t) (iblk m c 7 t)
      = blockRes m c t := by
  funext y
  unfold out0_8
  refine View.canon_apply_of_pieces (blockRes m c t) _ ?_ y (cover0_8 _ _ _ _ y)
  intro pc hpc x
  simp only [List.mem_cons, List.not_mem_nil, or_false] at hpc
  have sub := subtile_entry m c t (iblk m c 0 t) (iblk m c 1 t) (iblk m c 2 t) (iblk m c 3 t) (iblk m c 4 t) (iblk m c 5 t)
    (iblk m c 6 t) (iblk m c 7 t) (state_blk m c t) (next_blk m c t) (w1_blk m c t) (w2_blk m c t) (c2_blk m c t) (w3_blk m c t)
    (w4_blk m c t) (c4_blk m c t)
  rcases hpc with rfl | rfl | rfl | rfl
  · exact (congrFun (stored_rows_768 _ _ _ _ _ _ _ _) x).trans
      (sub 768 (by omega) inb_S1024x32_S256x32_768_0 inb_S1024x128_S256x128_768_0 x)
  · exact (congrFun (stored_rows_512 _ _ _ _ _ _ _ _) x).trans
      (sub 512 (by omega) inb_S1024x32_S256x32_512_0 inb_S1024x128_S256x128_512_0 x)
  · exact (congrFun (stored_rows_256 _ _ _ _ _ _ _ _) x).trans
      (sub 256 (by omega) inb_S1024x32_S256x32_256_0 inb_S1024x128_S256x128_256_0 x)
  · exact (congrFun (stored_rows_0 _ _ _ _ _ _ _ _) x).trans
      (sub 0 (by omega) inb_S1024x32_S256x32_0_0 inb_S1024x128_S256x128_0_0 x)

/-- What point t writes back is block t of the result. -/
theorem flushed_eq (c : Dev nD) (t : Fin cfg0.N) :
    (dats m 0 c).flushed 8 t = ((cfg0.win 8).blk t).view.read (Elt Ideal) (res m c) := by
  rw [flushed8, out_block]
  funext j
  show blockRes m c t _ = res m c (((cfg0.win 8).blk t).view.emb j)
  unfold blockRes
  refine congrArg (res m c) (funext fun a => Fin.ext ?_)
  obtain ⟨-, -, -, -, e0, e1⟩ := idx_batch t
  match a with
  | ⟨0, _⟩ => show 1024 * t.val + (j 0).val = win0_8.index t (0 : Fin 2) * 1024 + 1 * (j 0).val; rw [e0]; omega
  | ⟨1, _⟩ => show (j 1).val = win0_8.index t (1 : Fin 2) * 128 + 1 * (j 1).val; rw [e1]; omega

/-- An index of the result array is in point t's block iff each coordinate is in the block's range. -/
theorem mem_blk (t : Fin cfg0.N) (i : S16384x128.Idx) :
    i ∈ ((cfg0.win 8).blk t).view.set ↔ ∀ a : Fin 2, win0_8.index t a * S1024x128.size a ≤ (i a).val
      ∧ (i a).val < win0_8.index t a * S1024x128.size a + S1024x128.size a := by
  show i ∈ ((View.whole main_v12).slice (win0_8.rect t)).set ↔ _
  rw [View.set_slice_whole, Rect.mem_set_unit]
  exact Iff.rfl

/-- The 16 blocks cover the result array: row i is in block i / 1024. -/
theorem cover (i : S16384x128.Idx) : ∃ t : Fin cfg0.N, (cfg0.win 8).flush t = true ∧ i ∈ ((cfg0.win 8).blk t).view.set := by
  have h0 : (i 0).val < 16384 := idx2_lt0 i
  have h1 : (i 1).val < 128 := idx2_lt1 i
  let t : Fin cfg0.N := ⟨(i 0).val / 1024, lt_of_lt_of_eq (by omega) N_0.symm⟩
  refine ⟨t, flush0_8 t, ?_⟩
  rw [mem_blk]
  obtain ⟨-, -, -, -, e0, e1⟩ := idx_batch t
  intro a
  match a with
  | ⟨0, _⟩ =>
    show win0_8.index t (0 : Fin 2) * 1024 ≤ (i 0).val ∧ (i 0).val < win0_8.index t (0 : Fin 2) * 1024 + 1024
    rw [e0]; show (i 0).val / 1024 * 1024 ≤ (i 0).val ∧ (i 0).val < (i 0).val / 1024 * 1024 + 1024; omega
  | ⟨1, _⟩ =>
    show win0_8.index t (1 : Fin 2) * 128 ≤ (i 1).val ∧ (i 1).val < win0_8.index t (1 : Fin 2) * 128 + 128
    rw [e1]; omega

/-- The result array after the run is the row-by-row action head of the ten arguments. -/
theorem final (c : Dev nD) : (dats m 0 c).arrAt 8 cfg0.N = res m c :=
  (dats m 0 c).arrAt_eq_of_cover 8 (res m c) (fun t _ => flushed_eq m c t) cover

/-- The kernel's run, read: the result at the action head of the arguments, the arguments unchanged. -/
theorem run : θ_run defs (onTc (τ := τ) (main (F := Ideal))) ⟨m, fun _ => 0, ρ⟩ fun r => ∀ c : Dev nD,
      r.2.mem ((c : Thread nD τ).loc main_v12) = res m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9) :=
  (θ_run defs _ _).mono (fun r h c => ⟨(h c).1.trans (final m c), (h c).2⟩) (run_blocks m ρ)

end Cert.KerBlock

end
-- ==== Proof.RefRows.lean ====
/-
  The reference program's result, entry by entry, is the action head of the batch element's two rows.

  Its dot_generals are plain sums over the contracted axis, its bias additions add the bias row to every batch row,
  its rectifier is the maximum with zero, and its concatenation lays the two 32-wide net outputs side by side. Read
  one operation at a time at entry (i, ·), the stages are: the hidden layer of the shared net on row i, the net's
  output on row i (for the state array and again for the next-state array), the joined 64-wide row, the head's hidden
  layer, the head's output.
-/
import proofs.«159193_g11802570129985_cont_main3_81_9_alg».proof.Proof.Gen.ReferenceIdeal.Read
import proofs.«159193_g11802570129985_cont_main3_81_9_alg».proof.Proof.RowNet

noncomputable section

namespace Cert.RefRows

open Cert.ReferenceIdeal Cert.ReferenceIdeal.Read Idealize.ShloMosaic Idealize.ShloMosaic.ValueIdx Cert.RowNet

variable (x0 x1 : FVec Ideal S16384x32 .f32) (x2 : FVec Ideal S32x4096 .f32) (x3 : FVec Ideal S4096 .f32)
  (x4 : FVec Ideal S4096x32 .f32) (x5 : FVec Ideal S32 .f32) (x6 : FVec Ideal S64x4096 .f32) (x7 : FVec Ideal S4096 .f32)
  (x8 : FVec Ideal S4096x128 .f32) (x9 : FVec Ideal S128 .f32)

/-- The zero word is the real zero. -/
theorem zero_word : FloatOps.ofBits (F := Ideal) .f32 0x00000000#32 = (0 : EReal) := Ideal.ofBits_zero_f32

/-! ## The shared net on the state array -/

/-- The net's hidden layer on the state array's row i. -/
theorem hidden_state (i : Fin 16384) (j : Fin 4096) :
    val_main_v4 (F := Ideal) x0 x2 x3 (ix2 i j) = relu (lin (mat x2) (vec x3) (row x0 i)) j := by
  rw [val_main_v4_apply, val_main_v3_apply, val_main_v0_apply, val_main_v2_apply, val_main_v1_apply,
    val_main_call0_v0_apply, val_main_call0_cst_apply, zero_word]
  have e1 : ∀ k : Fin 32, lidx_main_v0 (ix2 i j) k = ix2 i k := fun k => funext fun a => by
    match a with | ⟨0, _⟩ => rfl | ⟨1, _⟩ => rfl
  have e2 : ∀ k : Fin 32, ridx_main_v0 (ix2 i j) k = ix2 k j := fun k => funext fun a => by
    match a with | ⟨0, _⟩ => rfl | ⟨1, _⟩ => rfl
  have e3 : idx_main_v1 (idx_main_v2 (ix2 i j)) = ix1 j := funext fun a => by
    match a with | ⟨0, _⟩ => rfl
  simp only [e1, e2, e3]
  rfl

/-- The net's output on the state array's row i. -/
theorem net_state (i : Fin 16384) (o : Fin 32) :
    val_main_v9 (F := Ideal) x0 x2 x3 x4 x5 (ix2 i o) = net (mat x2) (vec x3) (mat x4) (vec x5) (row x0 i) o := by
  rw [val_main_v9_apply, val_main_v8_apply, val_main_v5_apply, val_main_v7_apply, val_main_v6_apply,
    val_main_call1_v0_apply, val_main_call1_cst_apply, zero_word]
  have e1 : ∀ k : Fin 4096, lidx_main_v5 (ix2 i o) k = ix2 i k := fun k => funext fun a => by
    match a with | ⟨0, _⟩ => rfl | ⟨1, _⟩ => rfl
  have e2 : ∀ k : Fin 4096, ridx_main_v5 (ix2 i o) k = ix2 k o := fun k => funext fun a => by
    match a with | ⟨0, _⟩ => rfl | ⟨1, _⟩ => rfl
  have e3 : idx_main_v6 (idx_main_v7 (ix2 i o)) = ix1 o := funext fun a => by
    match a with | ⟨0, _⟩ => rfl
  simp only [e1, e2, e3, hidden_state]
  rfl

/-! ## The shared net on the next-state array -/

/-- The net's hidden layer on the next-state array's row i. -/
theorem hidden_next (i : Fin 16384) (j : Fin 4096) :
    val_main_v14 (F := Ideal) x1 x2 x3 (ix2 i j) = relu (lin (mat x2) (vec x3) (row x1 i)) j := by
  rw [val_main_v14_apply, val_main_v13_apply, val_main_v10_apply, val_main_v12_apply, val_main_v11_apply,
    val_main_call2_v0_apply, val_main_call2_cst_apply, zero_word]
  have e1 : ∀ k : Fin 32, lidx_main_v10 (ix2 i j) k = ix2 i k := fun k => funext fun a => by
    match a with | ⟨0, _⟩ => rfl | ⟨1, _⟩ => rfl
  have e2 : ∀ k : Fin 32, ridx_main_v10 (ix2 i j) k = ix2 k j := fun k => funext fun a => by
    match a with | ⟨0, _⟩ => rfl | ⟨1, _⟩ => rfl
  have e3 : idx_main_v11 (idx_main_v12 (ix2 i j)) = ix1 j := funext fun a => by
    match a with | ⟨0, _⟩ => rfl
  simp only [e1, e2, e3]
  rfl

/-- The net's output on the next-state array's row i. -/
theorem net_next (i : Fin 16384) (o : Fin 32) :
    val_main_v19 (F := Ideal) x1 x2 x3 x4 x5 (ix2 i o) = net (mat x2) (vec x3) (mat x4) (vec x5) (row x1 i) o := by
  rw [val_main_v19_apply, val_main_v18_apply, val_main_v15_apply, val_main_v17_apply, val_main_v16_apply,
    val_main_call3_v0_apply, val_main_call3_cst_apply, zero_word]
  have e1 : ∀ k : Fin 4096, lidx_main_v15 (ix2 i o) k = ix2 i k := fun k => funext fun a => by
    match a with | ⟨0, _⟩ => rfl | ⟨1, _⟩ => rfl
  have e2 : ∀ k : Fin 4096, ridx_main_v15 (ix2 i o) k = ix2 k o := fun k => funext fun a => by
    match a with | ⟨0, _⟩ => rfl | ⟨1, _⟩ => rfl
  have e3 : idx_main_v16 (idx_main_v17 (ix2 i o)) = ix1 o := funext fun a => by
    match a with | ⟨0, _⟩ => rfl
  simp only [e1, e2, e3, hidden_next]
  rfl

/-! ## The two outputs side by side -/

/-- The concatenation along the columns, on row i: columns below 32 are the state row's net output, the others the
    next-state row's. -/
theorem joined (i : Fin 16384) (k : Fin 64) :
    val_main_v20 (F := Ideal) x0 x1 x2 x3 x4 x5 (ix2 i k)
      = join (net (mat x2) (vec x3) (mat x4) (vec x5) (row x0 i)) (net (mat x2) (vec x3) (mat x4) (vec x5) (row x1 i)) k := by
  unfold val_main_v20
  by_cases hk : k.val < 32
  · refine Eq.trans ?_ (join_left (A := 32) (B := 32) _ _ k hk).symm
    rw [concatenate_pair_apply_left (t := S16384x64) (s₁ := S16384x32) (s₂ := S16384x32) (1 : Fin S16384x64.rank) _ _ _ (ix2 i k) rfl
        (ix2 i (⟨k.val, hk⟩ : Fin 32)) (fun b => by match b with | ⟨0, _⟩ => rfl | ⟨1, _⟩ => rfl)]
    exact net_state x0 x2 x3 x4 x5 i ⟨k.val, hk⟩
  · refine Eq.trans ?_ (join_right (A := 32) (B := 32) _ _ k hk).symm
    rw [concatenate_pair_apply_right (t := S16384x64) (s₁ := S16384x32) (s₂ := S16384x32) (1 : Fin S16384x64.rank) _ _ _ (ix2 i k) rfl rfl
        (ix2 i (⟨k.val - 32, by have := k.isLt; omega⟩ : Fin 32))
        (fun b hb => by
          match b with
          | ⟨0, _⟩ => rfl
          | ⟨1, _⟩ => exact absurd rfl hb)
        (by show k.val - 32 + 32 = k.val; omega)]
    exact net_next x1 x2 x3 x4 x5 i ⟨k.val - 32, by have := k.isLt; omega⟩

/-! ## The action head -/

/-- The head's hidden layer on batch element i. -/
theorem hidden_head (i : Fin 16384) (j : Fin 4096) :
    val_main_v25 (F := Ideal) x0 x1 x2 x3 x4 x5 x6 x7 (ix2 i j)
      = relu (lin (mat x6) (vec x7)
          (join (net (mat x2) (vec x3) (mat x4) (vec x5) (row x0 i)) (net (mat x2) (vec x3) (mat x4) (vec x5) (row x1 i)))) j := by
  rw [val_main_v25_apply, val_main_v24_apply, val_main_v21_apply, val_main_v23_apply, val_main_v22_apply,
    val_main_call4_v0_apply, val_main_call4_cst_apply, zero_word]
  have e1 : ∀ k : Fin 64, lidx_main_v21 (ix2 i j) k = ix2 i k := fun k => funext fun a => by
    match a with | ⟨0, _⟩ => rfl | ⟨1, _⟩ => rfl
  have e2 : ∀ k : Fin 64, ridx_main_v21 (ix2 i j) k = ix2 k j := fun k => funext fun a => by
    match a with | ⟨0, _⟩ => rfl | ⟨1, _⟩ => rfl
  have e3 : idx_main_v22 (idx_main_v23 (ix2 i j)) = ix1 j := funext fun a => by
    match a with | ⟨0, _⟩ => rfl
  simp only [e1, e2, e3, joined]
  rfl

/-- The head's output on batch element i. -/
theorem out_head (i : Fin 16384) (q : Fin 128) :
    val_main_v29 (F := Ideal) x0 x1 x2 x3 x4 x5 x6 x7 x8 x9 (ix2 i q)
      = head (mat x2) (vec x3) (mat x4) (vec x5) (mat x6) (vec x7) (mat x8) (vec x9) (row x0 i) (row x1 i) q := by
  rw [val_main_v29_apply, val_main_v26_apply, val_main_v28_apply, val_main_v27_apply]
  have e1 : ∀ k : Fin 4096, lidx_main_v26 (ix2 i q) k = ix2 i k := fun k => funext fun a => by
    match a with | ⟨0, _⟩ => rfl | ⟨1, _⟩ => rfl
  have e2 : ∀ k : Fin 4096, ridx_main_v26 (ix2 i q) k = ix2 k q := fun k => funext fun a => by
    match a with | ⟨0, _⟩ => rfl | ⟨1, _⟩ => rfl
  have e3 : idx_main_v27 (idx_main_v28 (ix2 i q)) = ix1 q := funext fun a => by
    match a with | ⟨0, _⟩ => rfl
  simp only [e1, e2, e3, hidden_head]
  rfl

/-- The reference's result array is the row-by-row action head of its arguments. -/
theorem reference_result :
    val_main_v29 (F := Ideal) x0 x1 x2 x3 x4 x5 x6 x7 x8 x9 = result x0 x1 x2 x3 x4 x5 x6 x7 x8 x9 := by
  funext y
  rw [eq_ix2 y]
  exact out_head x0 x1 x2 x3 x4 x5 x6 x7 x8 x9 (y 0) (y 1)

end Cert.RefRows

end
-- ==== Proof.lean ====
/-
  A Siamese network's forward pass, fused into one kernel, against its plain reference, over the extended reals.

  The reference applies a shared two-layer rectified net to each batch row of the state array and of the next-state
  array, lays the two 32-wide outputs side by side, and applies a two-layer head:
      out[i] = layer4 (relu (layer3 (net state[i] ‖ net next[i]))),   net x = relu (layer2 (relu (layer1 x))),
  every layer x ↦ x·W + b. The kernel runs 16 grid points of 1024 batch rows, each in four 256-row sub-tiles. In a
  sub-tile it stacks the state rows over the next-state rows so that the shared net runs once on 512 rows, and it
  carries the first and third biases THROUGH the products: the activations get a column of ones and the weights get
  the bias as one more row, built by the host operations before the call. The casts to a narrower float format are
  the identity over the extended reals.

  Equality is row by row. A product into a zero accumulator and a host dot_general are both the finite sum over the
  contracted axis. The sum over 33 (or 65) positions of a row ending in a one against weights ending in the bias row
  splits off its last term, 1 * b = b, which holds for every extended real b; no distributive law is used, so the
  finiteness of the inputs is never needed. The rest is bookkeeping of which array row each block row is.

  The three frames: the two kernel programs' are the generated frame certificates; the reference has no kernel and
  its frame is its generated run with the result dropped. The idealization rewrote nothing, so it is preserved
  trivially.
-/
import proofs.«159193_g11802570129985_cont_main3_81_9_alg».proof.Defs
import proofs.«159193_g11802570129985_cont_main3_81_9_alg».proof.Proof.Gen.Kernel
import proofs.«159193_g11802570129985_cont_main3_81_9_alg».proof.Proof.Gen.Kernel.Skeleton
import proofs.«159193_g11802570129985_cont_main3_81_9_alg».proof.Proof.Gen.Kernel.Launch
import proofs.«159193_g11802570129985_cont_main3_81_9_alg».proof.Proof.Gen.Kernel.Points
import proofs.«159193_g11802570129985_cont_main3_81_9_alg».proof.Proof.Gen.Kernel.Frame
import proofs.«159193_g11802570129985_cont_main3_81_9_alg».proof.Proof.Gen.KernelIdeal
import proofs.«159193_g11802570129985_cont_main3_81_9_alg».proof.Proof.Gen.KernelIdeal.Skeleton
import proofs.«159193_g11802570129985_cont_main3_81_9_alg».proof.Proof.Gen.KernelIdeal.Launch
import proofs.«159193_g11802570129985_cont_main3_81_9_alg».proof.Proof.Gen.KernelIdeal.Points
import proofs.«159193_g11802570129985_cont_main3_81_9_alg».proof.Proof.Gen.KernelIdeal.Frame
import proofs.«159193_g11802570129985_cont_main3_81_9_alg».proof.Proof.Gen.ReferenceIdeal
import proofs.«159193_g11802570129985_cont_main3_81_9_alg».proof.Proof.Gen.Pre_finite_inputs
import proofs.«159193_g11802570129985_cont_main3_81_9_alg».proof.Proof.Gen.KernelIdeal.Value
import proofs.«159193_g11802570129985_cont_main3_81_9_alg».proof.Proof.Gen.ReferenceIdeal.Run
import proofs.«159193_g11802570129985_cont_main3_81_9_alg».proof.Proof.Gen.ReferenceIdeal.Read
import proofs.«159193_g11802570129985_cont_main3_81_9_alg».proof.Proof.KerArray
import proofs.«159193_g11802570129985_cont_main3_81_9_alg».proof.Proof.RefRows
import Idealize.ShloMosaic.Adequacy
import Idealize.ShloMosaic.Init

noncomputable section

namespace Cert.Proof

open Idealize.ShloMosaic Idealize.SL.Sem

/-- The word-level kernel terminates without a fault and leaves its arguments unchanged. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- So does the reference: its run, the result dropped. -/
theorem frame_reference : Cert.frame_ReferenceIdeal := fun m ρ _ =>
  (θ_run Cert.ReferenceIdeal.defs _ _).mono (fun _ h c => (h c).2) (Cert.ReferenceIdeal.Value.run (F := Ideal) m ρ)

/-- Nothing was rewritten when the kernel was idealized. -/
theorem preserves : Cert.preserves_Kernel_KernelIdeal := trivial

/-- From memories agreeing on the ten arguments both programs end with the result array at the row-by-row action
    head of the arguments: the kernel by its blocks, the reference operation by operation. -/
theorem algebraic : Cert.algebraic_KernelIdeal_ReferenceIdeal := by
  intro m ρ m' ρ' _ hagree
  refine ⟨fun c => Cert.KerBlock.res m c, Cert.KerBlock.run m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5, e6, e7, e8, e9⟩ := hagree c
  rw [Cert.ReferenceIdeal.Read.val_main_v29_eq, Cert.RefRows.reference_result, e0, e1, e2, e3, e4, e5, e6, e7, e8, e9]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
